-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x10x512x512 : Shape := ⟨4, ![8, 10, 512, 512]⟩
abbrev S8x512x512 : Shape := ⟨3, ![8, 512, 512]⟩
abbrev S_ : Shape := ⟨0, ![]⟩

class Facts : Prop where
  bcast_S_S8x10x512x512 : S_.BroadcastsInDim S8x10x512x512 (![] : Fin 0 → Fin S8x10x512x512.rank)
  reducesTo_S8x10x512x512_S_d0_1_2_3 : S8x10x512x512.ReducesTo [0, 1, 2, 3] S_
  h_S_ : 0 < S_.numel

variable [Facts]

def fn {F : FTy → Type} [FloatOps F] (main_arg0 : FVec F S8x10x512x512 .f32) (main_arg1 : IVec S8x512x512 32) : IVec S_ 1 :=
  let main_v0 : FVec F S8x10x512x512 .f32 := Host.absf main_arg0
  let main_cst : FVec F S_ .f32 := constant S_ .f32 0x7F800000#32
  let main_v1 : FVec F S8x10x512x512 .f32 := broadcastInDim S8x10x512x512 ![] bcast_S_S8x10x512x512 main_cst
  let main_v2 : IVec S8x10x512x512 1 := cmpf .olt main_v0 main_v1
  let main_c : IVec S_ 1 := constantI S_ 1 1#1
  let main_v3 : IVec S_ 1 := (fun x v => Host.reduce IntOp.andi x v reducesTo_S8x10x512x512_S_d0_1_2_3 h_S_) main_v2 main_c
  main_v3
-- ==== Kernel.lean ====
abbrev S8x10x512x512 : Shape := ⟨4, ![8, 10, 512, 512]⟩
abbrev S8x512x512 : Shape := ⟨3, ![8, 512, 512]⟩
abbrev S1x10x512x256 : Shape := ⟨4, ![1, 10, 512, 256]⟩
abbrev S1x512x256 : Shape := ⟨3, ![1, 512, 256]⟩
abbrev S512x256 : Shape := ⟨2, ![512, 256]⟩
abbrev S1x1x512x256 : Shape := ⟨4, ![1, 1, 512, 256]⟩
abbrev S_ : Shape := ⟨0, ![]⟩
abbrev S2097152 : Shape := ⟨1, ![2097152]⟩
abbrev S10 : Shape := ⟨1, ![10]⟩
abbrev S2097152x1 : Shape := ⟨2, ![2097152, 1]⟩
abbrev S8x512x512x1 : Shape := ⟨4, ![8, 512, 512, 1]⟩

abbrev nBuf : Space → Nat
  | .hbm => 81
  | .vmem => 8
  | .smem => 0
  | _ => 0

abbrev bufTy : (tb : Table) → Fin (tcTables nBuf tb) → BufTy
  | .hbm, ⟨0, _⟩ => ⟨S8x10x512x512, .f32⟩
  | .hbm, ⟨1, _⟩ => ⟨S8x512x512, .i32⟩
  | .hbm, ⟨2, _⟩ => ⟨S8x512x512, .f32⟩
  | .hbm, ⟨3, _⟩ => ⟨S8x512x512, .f32⟩
  | .hbm, ⟨4, _⟩ => ⟨S_, .i32⟩
  | .hbm, ⟨5, _⟩ => ⟨S8x512x512, .i32⟩
  | .hbm, ⟨6, _⟩ => ⟨S8x512x512, .i1⟩
  | .hbm, ⟨7, _⟩ => ⟨S8x512x512, .f32⟩
  | .hbm, ⟨8, _⟩ => ⟨S_, .f32⟩
  | .hbm, ⟨9, _⟩ => ⟨S_, .f32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S8x512x512, .i32⟩
  | .hbm, ⟨14, _⟩ => ⟨S8x512x512, .i32⟩
  | .hbm, ⟨15, _⟩ => ⟨S_, .i32⟩
  | .hbm, ⟨16, _⟩ => ⟨S8x512x512, .i32⟩
  | .hbm, ⟨17, _⟩ => ⟨S8x512x512, .i32⟩
  | .hbm, ⟨18, _⟩ => ⟨S2097152, .i32⟩
  | .hbm, ⟨19, _⟩ => ⟨S2097152, .f32⟩
  | .hbm, ⟨20, _⟩ => ⟨S2097152, .f32⟩
  | .hbm, ⟨21, _⟩ => ⟨S_, .f32⟩
  | .hbm, ⟨22, _⟩ => ⟨S10, .f32⟩
  | .hbm, ⟨23, _⟩ => ⟨S2097152x1, .i32⟩
  | .hbm, ⟨24, _⟩ => ⟨S10, .f32⟩
  | .hbm, ⟨25, _⟩ => ⟨S2097152, .f32⟩
  | .hbm, ⟨26, _⟩ => ⟨S_, .f32⟩
  | .hbm, ⟨27, _⟩ => ⟨S10, .f32⟩
  | .hbm, ⟨28, _⟩ => ⟨S2097152x1, .i32⟩
  | .hbm, ⟨29, _⟩ => ⟨S10, .f32⟩
  | .hbm, ⟨30, _⟩ => ⟨S_, .f32⟩
  | .hbm, ⟨31, _⟩ => ⟨S10, .f32⟩
  | .hbm, ⟨32, _⟩ => ⟨S10, .i1⟩
  | .hbm, ⟨33, _⟩ => ⟨S_, .f32⟩
  | .hbm, ⟨34, _⟩ => ⟨S_, .i1⟩
  | .hbm, ⟨35, _⟩ => ⟨S10, .i1⟩
  | .hbm, ⟨36, _⟩ => ⟨S10, .i1⟩
  | .hbm, ⟨37, _⟩ => ⟨S10, .f32⟩
  | .hbm, ⟨38, _⟩ => ⟨S10, .f32⟩
  | .hbm, ⟨39, _⟩ => ⟨S_, .f32⟩
  | .hbm, ⟨40, _⟩ => ⟨S_, .f32⟩
  | .hbm, ⟨41, _⟩ => ⟨S10, .f32⟩
  | .hbm, ⟨42, _⟩ => ⟨S10, .f32⟩
  | .hbm, ⟨43, _⟩ => ⟨S_, .f32⟩
  | .hbm, ⟨44, _⟩ => ⟨S_, .f32⟩
  | .hbm, ⟨45, _⟩ => ⟨S10, .f32⟩
  | .hbm, ⟨46, _⟩ => ⟨S10, .f32⟩
  | .hbm, ⟨47, _⟩ => ⟨S_, .f32⟩
  | .hbm, ⟨48, _⟩ => ⟨S10, .f32⟩
  | .hbm, ⟨49, _⟩ => ⟨S10, .i1⟩
  | .hbm, ⟨50, _⟩ => ⟨S_, .f32⟩
  | .hbm, ⟨51, _⟩ => ⟨S10, .f32⟩
  | .hbm, ⟨52, _⟩ => ⟨S10, .f32⟩
  | .hbm, ⟨53, _⟩ => ⟨S10, .f32⟩
  | .hbm, ⟨54, _⟩ => ⟨S_, .f32⟩
  | .hbm, ⟨55, _⟩ => ⟨S_, .f32⟩
  | .hbm, ⟨56, _⟩ => ⟨S10, .f32⟩
  | .hbm, ⟨57, _⟩ => ⟨S10, .f32⟩
  | .hbm, ⟨58, _⟩ => ⟨S_, .f32⟩
  | .hbm, ⟨59, _⟩ => ⟨S10, .f32⟩
  | .hbm, ⟨60, _⟩ => ⟨S10, .f32⟩
  | .hbm, ⟨61, _⟩ => ⟨S_, .f32⟩
  | .hbm, ⟨62, _⟩ => ⟨S10, .f32⟩
  | .hbm, ⟨63, _⟩ => ⟨S10, .f32⟩
  | .hbm, ⟨64, _⟩ => ⟨S10, .f32⟩
  | .hbm, ⟨65, _⟩ => ⟨S_, .i32⟩
  | .hbm, ⟨66, _⟩ => ⟨S8x512x512, .i32⟩
  | .hbm, ⟨67, _⟩ => ⟨S8x512x512, .i1⟩
  | .hbm, ⟨68, _⟩ => ⟨S_, .i32⟩
  | .hbm, ⟨69, _⟩ => ⟨S8x512x512, .i32⟩
  | .hbm, ⟨70, _⟩ => ⟨S8x512x512, .i32⟩
  | .hbm, ⟨71, _⟩ => ⟨S8x512x512, .i32⟩
  | .hbm, ⟨72, _⟩ => ⟨S8x512x512x1, .i32⟩
  | .hbm, ⟨73, _⟩ => ⟨S8x512x512, .f32⟩
  | .hbm, ⟨74, _⟩ => ⟨S8x512x512, .f32⟩
  | .hbm, ⟨75, _⟩ => ⟨S8x512x512, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .local _ .vmem, ⟨0, _⟩ => ⟨S1x10x512x256, .f32⟩
  | .local _ .vmem, ⟨1, _⟩ => ⟨S1x10x512x256, .f32⟩
  | .local _ .vmem, ⟨2, _⟩ => ⟨S1x512x256, .i32⟩
  | .local _ .vmem, ⟨3, _⟩ => ⟨S1x512x256, .i32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | _, _ => ⟨S8x10x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_c_0 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_call1_v0 : Ref sig .tc := ⟨.hbm, 44, rfl⟩
abbrev main_call1_v1 : Ref sig .tc := ⟨.hbm, 45, rfl⟩
abbrev main_v26 : Ref sig .tc := ⟨.hbm, 46, rfl⟩
abbrev main_cst_8 : Ref sig .tc := ⟨.hbm, 47, rfl⟩
abbrev main_v27 : Ref sig .tc := ⟨.hbm, 48, rfl⟩
abbrev main_v28 : Ref sig .tc := ⟨.hbm, 49, rfl⟩
abbrev main_cst_9 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_10 : Ref sig .tc := ⟨.hbm, 54, rfl⟩
abbrev main_call2_v0 : Ref sig .tc := ⟨.hbm, 55, rfl⟩
abbrev main_call2_v1 : Ref sig .tc := ⟨.hbm, 56, rfl⟩
abbrev main_v32 : Ref sig .tc := ⟨.hbm, 57, rfl⟩
abbrev main_cst_11 : Ref sig .tc := ⟨.hbm, 58, rfl⟩
abbrev main_v33 : Ref sig .tc := ⟨.hbm, 59, rfl⟩
abbrev main_v34 : Ref sig .tc := ⟨.hbm, 60, rfl⟩
abbrev main_cst_12 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_13 : Ref sig .tc := ⟨.hbm, 65, rfl⟩
abbrev main_v38 : Ref sig .tc := ⟨.hbm, 66, rfl⟩
abbrev main_v39 : Ref sig .tc := ⟨.hbm, 67, rfl⟩
abbrev main_c_14 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_15 : Ref sig .tc := ⟨.hbm, 76, rfl⟩
abbrev main_v47 : Ref sig .tc := ⟨.hbm, 77, rfl⟩
abbrev main_cst_16 : Ref sig .tc := ⟨.hbm, 78, rfl⟩
abbrev main_v48 : Ref sig .tc := ⟨.hbm, 79, rfl⟩
abbrev main_v49 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x10x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  natLt_1_32 : 1 < 32
  inb_S1x10x512x256_S1x1x512x256_0_0_0_0 : ∀ a, (![0, 0, 0, 0] : Fin 4 → Nat) a + S1x1x512x256.size a ≤ S1x10x512x256.size a
  h_S1x1x512x256 : 0 < S1x1x512x256.numel
  shapeCasts_S1x1x512x256_S512x256 : S1x1x512x256.ShapeCasts S512x256
  inb_S1x10x512x256_S1x1x512x256_0_1_0_0 : ∀ a, (![0, 1, 0, 0] : Fin 4 → Nat) a + S1x1x512x256.size a ≤ S1x10x512x256.size a
  inb_S1x10x512x256_S1x1x512x256_0_2_0_0 : ∀ a, (![0, 2, 0, 0] : Fin 4 → Nat) a + S1x1x512x256.size a ≤ S1x10x512x256.size a
  inb_S1x10x512x256_S1x1x512x256_0_3_0_0 : ∀ a, (![0, 3, 0, 0] : Fin 4 → Nat) a + S1x1x512x256.size a ≤ S1x10x512x256.size a
  inb_S1x10x512x256_S1x1x512x256_0_4_0_0 : ∀ a, (![0, 4, 0, 0] : Fin 4 → Nat) a + S1x1x512x256.size a ≤ S1x10x512x256.size a
  inb_S1x10x512x256_S1x1x512x256_0_5_0_0 : ∀ a, (![0, 5, 0, 0] : Fin 4 → Nat) a + S1x1x512x256.size a ≤ S1x10x512x256.size a
  inb_S1x10x512x256_S1x1x512x256_0_6_0_0 : ∀ a, (![0, 6, 0, 0] : Fin 4 → Nat) a + S1x1x512x256.size a ≤ S1x10x512x256.size a
  inb_S1x10x512x256_S1x1x512x256_0_7_0_0 : ∀ a, (![0, 7, 0, 0] : Fin 4 → Nat) a + S1x1x512x256.size a ≤ S1x10x512x256.size a
  inb_S1x10x512x256_S1x1x512x256_0_8_0_0 : ∀ a, (![0, 8, 0, 0] : Fin 4 → Nat) a + S1x1x512x256.size a ≤ S1x10x512x256.size a
  inb_S1x10x512x256_S1x1x512x256_0_9_0_0 : ∀ a, (![0, 9, 0, 0] : Fin 4 → Nat) a + S1x1x512x256.size a ≤ S1x10x512x256.size a
  shapeCasts_S512x256_S1x512x256 : S512x256.ShapeCasts S1x512x256
  bcast_S_S8x512x512 : S_.BroadcastsInDim S8x512x512 (![] : Fin 0 → Fin S8x512x512.rank)
  reducesTo_S8x512x512_S_d0_1_2 : S8x512x512.ReducesTo [0, 1, 2] S_
  h_S_ : 0 < S_.numel
  shapeCasts_S8x512x512_S2097152 : S8x512x512.ShapeCasts S2097152
  bcast_S_S10 : S_.BroadcastsInDim S10 (![] : Fin 0 → Fin S10.rank)
  bcast_S2097152_S2097152x1_0 : S2097152.BroadcastsInDim S2097152x1 (![0] : Fin 1 → Fin S2097152x1.rank)
  bcast_S8x512x512_S8x512x512x1_0_1_2 : S8x512x512.BroadcastsInDim S8x512x512x1 (![0, 1, 2] : Fin 3 → Fin S8x512x512x1.rank)
  scatter_S10_S2097152x1_S2097152_n_0_0_1_wf : ScatterDims.WF S10 S2097152x1 S2097152 [] [0] [0] 1
  gather_S10_S8x512x512x1_S8x512x512_n_0_n_n_0_3_1_wf : GatherDims.WF S10 S8x512x512x1 S8x512x512 [] [0] [] [0] [] 3 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x10x512x256.size a ≤ S8x10x512x512.size a
  hwx0_0 : ∀ i : grid0.Coords, EltTy.bits .f32 = 32 ∨ (Rect.block (s := S8x10x512x512) S1x10x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x256.size a ≤ S8x512x512.size a
  hwx0_1 : ∀ i : grid0.Coords, EltTy.bits .i32 = 32 ∨ (Rect.block (s := S8x512x512) S1x512x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x256.size a ≤ S8x512x512.size a
  hwx0_2 : ∀ i : grid0.Coords, EltTy.bits .f32 = 32 ∨ (Rect.block (s := S8x512x512) S1x512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x256.size a ≤ S8x512x512.size a
  hwx0_3 : ∀ i : grid0.Coords, EltTy.bits .f32 = 32 ∨ (Rect.block (s := S8x512x512) S1x512x256.size (cc0_transform_3 i) (hinb0_3 i)).WholeWords (EltTy.packing .f32)

variable [Facts₀]

def scatter_S10_S2097152x1_S2097152_n_0_0_1 : ScatterDims S10 S2097152x1 S2097152 where
  updateWindowDims := []
  insertedWindowDims := [0]
  scatterDimsToOperandDims := [0]
  indexVectorDim := 1
  wf := scatter_S10_S2097152x1_S2097152_n_0_0_1_wf
def gather_S10_S8x512x512x1_S8x512x512_n_0_n_n_0_3_1 : GatherDims S10 S8x512x512x1 S8x512x512 where
  offsetDims := []
  collapsedSliceDims := [0]
  operandBatchingDims := []
  startIndicesBatchingDims := []
  startIndexMap := [0]
  indexVectorDim := 3
  sliceSizes := ![1]
  wf := gather_S10_S8x512x512x1_S8x512x512_n_0_n_n_0_3_1_wf

abbrev win0_0 : Pipeline.Window sig grid0 :=
  Pipeline.Window.ofSpec (Memref.whole main_arg0) S1x10x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x512x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x10x512x512 : Shape := ⟨4, ![8, 10, 512, 512]⟩
abbrev S8x512x512 : Shape := ⟨3, ![8, 512, 512]⟩
abbrev S_ : Shape := ⟨0, ![]⟩
abbrev S8x1x512x512 : Shape := ⟨4, ![8, 1, 512, 512]⟩
abbrev S2097152 : Shape := ⟨1, ![2097152]⟩
abbrev S10 : Shape := ⟨1, ![10]⟩
abbrev S2097152x1 : Shape := ⟨2, ![2097152, 1]⟩
abbrev S8x512x512x1 : Shape := ⟨4, ![8, 512, 512, 1]⟩
abbrev S8x1x512x512x1 : Shape := ⟨5, ![8, 1, 512, 512, 1]⟩
abbrev S1 : Shape := ⟨1, ![1]⟩
abbrev S1x1x1x1x1 : Shape := ⟨5, ![1, 1, 1, 1, 1]⟩

abbrev nBuf : Space → Nat
  | .hbm => 142
  | .vmem => 0
  | .smem => 0
  | _ => 0

abbrev hbmTy0_0 (i : Nat) : BufTy := match i % 128 with
  | 0 => ⟨S8x10x512x512, .f32⟩
  | 1 => ⟨S8x512x512, .i32⟩
  | 2 => ⟨S_, .f32⟩
  | 3 => ⟨S8x512x512, .f32⟩
  | 4 => ⟨S_, .f32⟩
  | 5 => ⟨S8x512x512, .f32⟩
  | 6 => ⟨S8x512x512, .f32⟩
  | 7 => ⟨S8x1x512x512, .f32⟩
  | 8 => ⟨S8x10x512x512, .f32⟩
  | 9 => ⟨S8x10x512x512, .f32⟩
  | 10 => ⟨S8x10x512x512, .f32⟩
  | 11 => ⟨S_, .f32⟩
  | 12 => ⟨S8x512x512, .f32⟩
  | 13 => ⟨S8x1x512x512, .f32⟩
  | 14 => ⟨S8x10x512x512, .f32⟩
  | 15 => ⟨S8x10x512x512, .f32⟩
  | 16 => ⟨S_, .f32⟩
  | 17 => ⟨S8x10x512x512, .f32⟩
  | 18 => ⟨S8x10x512x512, .f32⟩
  | 19 => ⟨S8x10x512x512, .f32⟩
  | 20 => ⟨S8x10x512x512, .f32⟩
  | 21 => ⟨S_, .f32⟩
  | 22 => ⟨S8x512x512, .f32⟩
  | 23 => ⟨S8x512x512, .f32⟩
  | 24 => ⟨S_, .i32⟩
  | 25 => ⟨S8x512x512, .i32⟩
  | 26 => ⟨S8x512x512, .i1⟩
  | 27 => ⟨S8x512x512, .f32⟩
  | 28 => ⟨S_, .f32⟩
  | 29 => ⟨S_, .f32⟩
  | 30 => ⟨S_, .i32⟩
  | 31 => ⟨S_, .i32⟩
  | 32 => ⟨S_, .i32⟩
  | 33 => ⟨S8x512x512, .i32⟩
  | 34 => ⟨S8x512x512, .i32⟩
  | 35 => ⟨S_, .i32⟩
  | 36 => ⟨S8x512x512, .i32⟩
  | 37 => ⟨S8x512x512, .i32⟩
  | 38 => ⟨S2097152, .i32⟩
  | 39 => ⟨S2097152, .f32⟩
  | 40 => ⟨S_, .f32⟩
  | 41 => ⟨S10, .f32⟩
  | 42 => ⟨S2097152x1, .i32⟩
  | 43 => ⟨S10, .f32⟩
  | 44 => ⟨S2097152, .f32⟩
  | 45 => ⟨S2097152, .f32⟩
  | 46 => ⟨S_, .f32⟩
  | 47 => ⟨S10, .f32⟩
  | 48 => ⟨S2097152x1, .i32⟩
  | 49 => ⟨S10, .f32⟩
  | 50 => ⟨S_, .f32⟩
  | 51 => ⟨S10, .f32⟩
  | 52 => ⟨S10, .i1⟩
  | 53 => ⟨S_, .f32⟩
  | 54 => ⟨S_, .i1⟩
  | 55 => ⟨S10, .i1⟩
  | 56 => ⟨S10, .i1⟩
  | 57 => ⟨S10, .f32⟩
  | 58 => ⟨S10, .f32⟩
  | 59 => ⟨S_, .f32⟩
  | 60 => ⟨S_, .f32⟩
  | 61 => ⟨S10, .f32⟩
  | 62 => ⟨S10, .f32⟩
  | 63 => ⟨S_, .f32⟩
  | 64 => ⟨S_, .f32⟩
  | 65 => ⟨S10, .f32⟩
  | 66 => ⟨S10, .f32⟩
  | 67 => ⟨S_, .f32⟩
  | 68 => ⟨S10, .f32⟩
  | 69 => ⟨S10, .i1⟩
  | 70 => ⟨S_, .f32⟩
  | 71 => ⟨S10, .f32⟩
  | 72 => ⟨S10, .f32⟩
  | 73 => ⟨S10, .f32⟩
  | 74 => ⟨S_, .f32⟩
  | 75 => ⟨S_, .f32⟩
  | 76 => ⟨S10, .f32⟩
  | 77 => ⟨S10, .f32⟩
  | 78 => ⟨S_, .f32⟩
  | 79 => ⟨S10, .f32⟩
  | 80 => ⟨S10, .f32⟩
  | 81 => ⟨S_, .f32⟩
  | 82 => ⟨S10, .f32⟩
  | 83 => ⟨S10, .f32⟩
  | 84 => ⟨S10, .f32⟩
  | 85 => ⟨S_, .i32⟩
  | 86 => ⟨S8x512x512, .i32⟩
  | 87 => ⟨S8x512x512, .i1⟩
  | 88 => ⟨S_, .i32⟩
  | 89 => ⟨S8x512x512, .i32⟩
  | 90 => ⟨S8x512x512, .i32⟩
  | 91 => ⟨S8x512x512, .i32⟩
  | 92 => ⟨S8x512x512x1, .i32⟩
  | 93 => ⟨S8x512x512, .f32⟩
  | 94 => ⟨S8x512x512, .f32⟩
  | 95 => ⟨S_, .f32⟩
  | 96 => ⟨S8x512x512, .f32⟩
  | 97 => ⟨S_, .f32⟩
  | 98 => ⟨S8x512x512, .f32⟩
  | 99 => ⟨S8x512x512, .f32⟩
  | 100 => ⟨S8x1x512x512, .f32⟩
  | 101 => ⟨S8x10x512x512, .f32⟩
  | 102 => ⟨S8x10x512x512, .f32⟩
  | 103 => ⟨S8x10x512x512, .f32⟩
  | 104 => ⟨S_, .f32⟩
  | 105 => ⟨S8x512x512, .f32⟩
  | 106 => ⟨S8x1x512x512, .f32⟩
  | 107 => ⟨S8x1x512x512, .f32⟩
  | 108 => ⟨S8x10x512x512, .f32⟩
  | 109 => ⟨S8x10x512x512, .f32⟩
  | 110 => ⟨S8x1x512x512, .i32⟩
  | 111 => ⟨S_, .i32⟩
  | 112 => ⟨S8x1x512x512, .i32⟩
  | 113 => ⟨S8x1x512x512, .i1⟩
  | 114 => ⟨S_, .i32⟩
  | 115 => ⟨S8x1x512x512, .i32⟩
  | 116 => ⟨S8x1x512x512, .i32⟩
  | 117 => ⟨S8x1x512x512, .i32⟩
  | 118 => ⟨S8x1x512x512x1, .i32⟩
  | 119 => ⟨S1, .i32⟩
  | 120 => ⟨S_, .i32⟩
  | 121 => ⟨S8x1x512x512x1, .i32⟩
  | 122 => ⟨S8x1x512x512x1, .i1⟩
  | 123 => ⟨S1x1x1x1x1, .i32⟩
  | 124 => ⟨S8x1x512x512x1, .i32⟩
  | 125 => ⟨S8x1x512x512x1, .i1⟩
  | 126 => ⟨S8x1x512x512x1, .i1⟩
  | 127 => ⟨S_, .i1⟩
  | _ => ⟨S8x10x512x512, .f32⟩

abbrev hbmTy0_1 (i : Nat) : BufTy := match i % 128 with
  | 0 => ⟨S8x1x512x512, .i1⟩
  | 1 => ⟨S8x1x512x512, .f32⟩
  | 2 => ⟨S_, .f32⟩
  | 3 => ⟨S8x1x512x512, .f32⟩
  | 4 => ⟨S8x1x512x512, .f32⟩
  | 5 => ⟨S8x512x512, .f32⟩
  | 6 => ⟨S8x512x512, .f32⟩
  | 7 => ⟨S8x512x512, .f32⟩
  | 8 => ⟨S8x512x512, .f32⟩
  | 9 => ⟨S_, .f32⟩
  | 10 => ⟨S_, .f32⟩
  | 11 => ⟨S_, .f32⟩
  | 12 => ⟨S_, .f32⟩
  | 13 => ⟨S_, .f32⟩
  | _ => ⟨S8x10x512x512, .f32⟩

abbrev hbmTy (i : Nat) : BufTy := match i / 128 with
  | 0 => hbmTy0_0 i
  | 1 => hbmTy0_1 i
  | _ => ⟨S8x10x512x512, .f32⟩

abbrev bufTy : (tb : Table) → Fin (tcTables nBuf tb) → BufTy
  | .hbm, ⟨i, _⟩ => hbmTy i
  | _, _ => ⟨S8x10x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_c_5 : Ref sig .tc := ⟨.hbm, 30, rfl⟩
abbrev main_c_6 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_9 : Ref sig .tc := ⟨.hbm, 50, rfl⟩
abbrev main_v32 : Ref sig .tc := ⟨.hbm, 51, rfl⟩
abbrev main_v33 : Ref sig .tc := ⟨.hbm, 52, rfl⟩
abbrev main_cst_10 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_11 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_12 : Ref sig .tc := ⟨.hbm, 63, rfl⟩
abbrev main_call1_v0 : Ref sig .tc := ⟨.hbm, 64, rfl⟩
abbrev main_call1_v1 : Ref sig .tc := ⟨.hbm, 65, rfl⟩
abbrev main_v42 : Ref sig .tc := ⟨.hbm, 66, rfl⟩
abbrev main_cst_13 : Ref sig .tc := ⟨.hbm, 67, rfl⟩
abbrev main_v43 : Ref sig .tc := ⟨.hbm, 68, rfl⟩
abbrev main_v44 : Ref sig .tc := ⟨.hbm, 69, rfl⟩
abbrev main_cst_14 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_15 : Ref sig .tc := ⟨.hbm, 74, rfl⟩
abbrev main_call2_v0 : Ref sig .tc := ⟨.hbm, 75, rfl⟩
abbrev main_call2_v1 : Ref sig .tc := ⟨.hbm, 76, rfl⟩
abbrev main_v48 : Ref sig .tc := ⟨.hbm, 77, rfl⟩
abbrev main_cst_16 : Ref sig .tc := ⟨.hbm, 78, rfl⟩
abbrev main_v49 : Ref sig .tc := ⟨.hbm, 79, rfl⟩
abbrev main_v50 : Ref sig .tc := ⟨.hbm, 80, rfl⟩
abbrev main_cst_17 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_c_18 : Ref sig .tc := ⟨.hbm, 85, rfl⟩
abbrev main_v54 : Ref sig .tc := ⟨.hbm, 86, rfl⟩
abbrev main_v55 : Ref sig .tc := ⟨.hbm, 87, rfl⟩
abbrev main_c_19 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_call3_cst : Ref sig .tc := ⟨.hbm, 95, rfl⟩
abbrev main_call3_v0 : Ref sig .tc := ⟨.hbm, 96, rfl⟩
abbrev main_call3_cst_0 : Ref sig .tc := ⟨.hbm, 97, rfl⟩
abbrev main_call3_v1 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_call3_v5 : Ref sig .tc := ⟨.hbm, 102, rfl⟩
abbrev main_call3_v6 : Ref sig .tc := ⟨.hbm, 103, rfl⟩
abbrev main_call3_cst_1 : Ref sig .tc := ⟨.hbm, 104, rfl⟩
abbrev main_call3_v7 : Ref sig .tc := ⟨.hbm, 105, rfl⟩
abbrev main_call3_v8 : Ref sig .tc := ⟨.hbm, 106, rfl⟩
abbrev main_call3_v9 : Ref sig .tc := ⟨.hbm, 107, rfl⟩
abbrev main_call3_v10 : Ref sig .tc := ⟨.hbm, 108, rfl⟩
abbrev main_v62 : Ref sig .tc := ⟨.hbm, 109, rfl⟩
abbrev main_v63 : Ref sig .tc := ⟨.hbm, 110, rfl⟩
abbrev main_call4_c : Ref sig .tc := ⟨.hbm, 111, rfl⟩
abbrev main_call4_v0 : Ref sig .tc := ⟨.hbm, 112, rfl⟩
abbrev main_call4_v1 : Ref sig .tc := ⟨.hbm, 113, rfl⟩
abbrev main_call4_c_0 : Ref sig .tc := ⟨.hbm, 114, rfl⟩
abbrev main_call4_v2 : Ref sig .tc := ⟨.hbm, 115, rfl⟩
abbrev main_call4_v3 : Ref sig .tc := ⟨.hbm, 116, rfl⟩
abbrev main_call4_v4 : Ref sig .tc := ⟨.hbm, 117, rfl⟩
abbrev main_call4_v5 : Ref sig .tc := ⟨.hbm, 118, rfl⟩
abbrev main_call4_c_1 : Ref sig .tc := ⟨.hbm, 119, rfl⟩
abbrev main_call4_c_2 : Ref sig .tc := ⟨.hbm, 120, rfl⟩
abbrev main_call4_v6 : Ref sig .tc := ⟨.hbm, 121, rfl⟩
abbrev main_call4_v7 : Ref sig .tc := ⟨.hbm, 122, rfl⟩
abbrev main_call4_v8 : Ref sig .tc := ⟨.hbm, 123, rfl⟩
abbrev main_call4_v9 : Ref sig .tc := ⟨.hbm, 124, rfl⟩
abbrev main_call4_v10 : Ref sig .tc := ⟨.hbm, 125, rfl⟩
abbrev main_call4_v11 : Ref sig .tc := ⟨.hbm, 126, rfl⟩
abbrev main_call4_c_3 : Ref sig .tc := ⟨.hbm, 127, rfl⟩
abbrev main_call4_v12 : Ref sig .tc := ⟨.hbm, 128, rfl⟩
abbrev main_call4_v13 : Ref sig .tc := ⟨.hbm, 129, rfl⟩
abbrev main_call4_cst : Ref sig .tc := ⟨.hbm, 130, rfl⟩
abbrev main_call4_v14 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_cst_20 : Ref sig .tc := ⟨.hbm, 137, rfl⟩
abbrev main_v69 : Ref sig .tc := ⟨.hbm, 138, rfl⟩
abbrev main_cst_21 : Ref sig .tc := ⟨.hbm, 139, rfl⟩
abbrev main_v70 : Ref sig .tc := ⟨.hbm, 140, rfl⟩
abbrev main_v71 : Ref sig .tc := ⟨.hbm, 141, rfl⟩

abbrev nD : Nat := 1
abbrev τ : Topo := Topo.v7x

variable {F : FTy → Type} [FloatOps F]

class Facts₀ : Prop where
  reducesTo_S8x10x512x512_S8x512x512_d1 : S8x10x512x512.ReducesTo [1] S8x512x512
  h_S_ : 0 < S_.numel
  bcast_S_S8x512x512 : S_.BroadcastsInDim S8x512x512 (![] : Fin 0 → Fin S8x512x512.rank)
  bcast_S8x512x512_S8x1x512x512_0_2_3 : S8x512x512.BroadcastsInDim S8x1x512x512 (![0, 2, 3] : Fin 3 → Fin S8x1x512x512.rank)
  bcast_S8x1x512x512_S8x10x512x512_0_1_2_3 : S8x1x512x512.BroadcastsInDim S8x10x512x512 (![0, 1, 2, 3] : Fin 4 → Fin S8x10x512x512.rank)
  bcast_S_S8x10x512x512 : S_.BroadcastsInDim S8x10x512x512 (![] : Fin 0 → Fin S8x10x512x512.rank)
  reducesTo_S8x512x512_S_d0_1_2 : S8x512x512.ReducesTo [0, 1, 2] S_
  shapeCasts_S8x512x512_S2097152 : S8x512x512.ShapeCasts S2097152
  bcast_S_S10 : S_.BroadcastsInDim S10 (![] : Fin 0 → Fin S10.rank)
  bcast_S2097152_S2097152x1_0 : S2097152.BroadcastsInDim S2097152x1 (![0] : Fin 1 → Fin S2097152x1.rank)
  bcast_S8x512x512_S8x512x512x1_0_1_2 : S8x512x512.BroadcastsInDim S8x512x512x1 (![0, 1, 2] : Fin 3 → Fin S8x512x512x1.rank)
  bcast_S_S8x1x512x512 : S_.BroadcastsInDim S8x1x512x512 (![] : Fin 0 → Fin S8x1x512x512.rank)
  shapeCasts_S8x1x512x512_S8x1x512x512x1 : S8x1x512x512.ShapeCasts S8x1x512x512x1
  bcast_S_S8x1x512x512x1 : S_.BroadcastsInDim S8x1x512x512x1 (![] : Fin 0 → Fin S8x1x512x512x1.rank)
  bcast_S1_S1x1x1x1x1_4 : S1.BroadcastsInDim S1x1x1x1x1 (![4] : Fin 1 → Fin S1x1x1x1x1.rank)
  bcast_S1x1x1x1x1_S8x1x512x512x1_0_1_2_3_4 : S1x1x1x1x1.BroadcastsInDim S8x1x512x512x1 (![0, 1, 2, 3, 4] : Fin 5 → Fin S8x1x512x512x1.rank)
  reducesTo_S8x1x512x512x1_S8x1x512x512_d4 : S8x1x512x512x1.ReducesTo [4] S8x1x512x512
  shapeCasts_S8x1x512x512_S8x512x512 : S8x1x512x512.ShapeCasts S8x512x512
  scatter_S10_S2097152x1_S2097152_n_0_0_1_wf : ScatterDims.WF S10 S2097152x1 S2097152 [] [0] [0] 1
  gather_S10_S8x512x512x1_S8x512x512_n_0_n_n_0_3_1_wf : GatherDims.WF S10 S8x512x512x1 S8x512x512 [] [0] [] [0] [] 3 ![1]
  gather_S8x10x512x512_S8x1x512x512x1_S8x1x512x512_n_1_023_023_1_4_1111_wf : GatherDims.WF S8x10x512x512 S8x1x512x512x1 S8x1x512x512 [] [1] [0, 2, 3] [1] [0, 2, 3] 4 ![1, 1, 1, 1]

variable [Facts₀]

def scatter_S10_S2097152x1_S2097152_n_0_0_1 : ScatterDims S10 S2097152x1 S2097152 where
  updateWindowDims := []
  insertedWindowDims := [0]
  scatterDimsToOperandDims := [0]
  indexVectorDim := 1
  wf := scatter_S10_S2097152x1_S2097152_n_0_0_1_wf
def gather_S10_S8x512x512x1_S8x512x512_n_0_n_n_0_3_1 : GatherDims S10 S8x512x512x1 S8x512x512 where
  offsetDims := []
  collapsedSliceDims := [0]
  operandBatchingDims := []
  startIndicesBatchingDims := []
  startIndexMap := [0]
  indexVectorDim := 3
  sliceSizes := ![1]
  wf := gather_S10_S8x512x512x1_S8x512x512_n_0_n_n_0_3_1_wf
def gather_S8x10x512x512_S8x1x512x512x1_S8x1x512x512_n_1_023_023_1_4_1111 : GatherDims S8x10x512x512 S8x1x512x512x1 S8x1x512x512 where
  offsetDims := []
  collapsedSliceDims := [1]
  operandBatchingDims := [0, 2, 3]
  startIndicesBatchingDims := [0, 2, 3]
  startIndexMap := [1]
  indexVectorDim := 4
  sliceSizes := ![1, 1, 1, 1]
  wf := gather_S8x10x512x512_S8x1x512x512x1_S8x1x512x512_n_1_023_023_1_4_1111_wf

class Facts : Prop extends Facts₀ where

variable [Facts]
-- ==== Proof.KIBody.lean ====
/-
  What one call of the kernel body leaves in its two output blocks, as a function of the score block `x0`
  (one batch row, ten classes, 512 × 256 pixels) and the target block `x1`: the body reads each class's plane of the scores
  (several times over: once for the maximum, once for the sum of exponentials, once for the entropy and cross-entropy terms) and
  the target plane, and every value it computes is pointwise in the pixel. The stages below follow the order in which the body's
  seven printed parts hand their values on: the clipped target and the validity factor; the running maximum over the classes;
  the sum of the shifted exponentials and its logarithm; then, class by class, the entropy and the cross entropy accumulated from zero.
  Everything is stated at any float family: at the word level it is what the frame needs, at the extended reals what the value needs.
-/
import proofs.«405973_j68616397521419_1_alg».proof.Proof.Gen.KernelIdeal.Skeleton
import Idealize.ShloMosaic.Lib.Pipeline.FrameBody

noncomputable section

namespace Cert.KernelIdeal.Hand

open Cert.KernelIdeal Cert.KernelIdeal.Gen Idealize.ShloMosaic Idealize.ShloMosaic.TcCoe

variable {F : FTy → Type} [FloatOps F]

/-- The whole of a 1 × 512 × 256 block: the target block, and each output block. -/
abbrev rT : Rect S1x512x256 := Rect.unit (s := S1x512x256) ![0, 0, 0] S1x512x256.size inb_S1x512x256_S1x512x256_0_0_0
/-- Class 0's plane of the score block. -/
abbrev rC0 : Rect S1x10x512x256 := Rect.unit (s := S1x10x512x256) ![0, 0, 0, 0] S1x1x512x256.size inb_S1x10x512x256_S1x1x512x256_0_0_0_0
/-- Class 1's plane of the score block. -/
abbrev rC1 : Rect S1x10x512x256 := Rect.unit (s := S1x10x512x256) ![0, 1, 0, 0] S1x1x512x256.size inb_S1x10x512x256_S1x1x512x256_0_1_0_0
/-- Class 2's plane of the score block. -/
abbrev rC2 : Rect S1x10x512x256 := Rect.unit (s := S1x10x512x256) ![0, 2, 0, 0] S1x1x512x256.size inb_S1x10x512x256_S1x1x512x256_0_2_0_0
/-- Class 3's plane of the score block. -/
abbrev rC3 : Rect S1x10x512x256 := Rect.unit (s := S1x10x512x256) ![0, 3, 0, 0] S1x1x512x256.size inb_S1x10x512x256_S1x1x512x256_0_3_0_0
/-- Class 4's plane of the score block. -/
abbrev rC4 : Rect S1x10x512x256 := Rect.unit (s := S1x10x512x256) ![0, 4, 0, 0] S1x1x512x256.size inb_S1x10x512x256_S1x1x512x256_0_4_0_0
/-- Class 5's plane of the score block. -/
abbrev rC5 : Rect S1x10x512x256 := Rect.unit (s := S1x10x512x256) ![0, 5, 0, 0] S1x1x512x256.size inb_S1x10x512x256_S1x1x512x256_0_5_0_0
/-- Class 6's plane of the score block. -/
abbrev rC6 : Rect S1x10x512x256 := Rect.unit (s := S1x10x512x256) ![0, 6, 0, 0] S1x1x512x256.size inb_S1x10x512x256_S1x1x512x256_0_6_0_0
/-- Class 7's plane of the score block. -/
abbrev rC7 : Rect S1x10x512x256 := Rect.unit (s := S1x10x512x256) ![0, 7, 0, 0] S1x1x512x256.size inb_S1x10x512x256_S1x1x512x256_0_7_0_0
/-- Class 8's plane of the score block. -/
abbrev rC8 : Rect S1x10x512x256 := Rect.unit (s := S1x10x512x256) ![0, 8, 0, 0] S1x1x512x256.size inb_S1x10x512x256_S1x1x512x256_0_8_0_0
/-- Class 9's plane of the score block. -/
abbrev rC9 : Rect S1x10x512x256 := Rect.unit (s := S1x10x512x256) ![0, 9, 0, 0] S1x1x512x256.size inb_S1x10x512x256_S1x1x512x256_0_9_0_0

/-- The target block as the body loads it. -/
abbrev ldT (x1 : Vec F S1x512x256 .i32) : Vec F S1x512x256 .i32 := View.ld x1 rT
/-- Class 0's plane as the body loads it. -/
abbrev ldC0 (x0 : Vec F S1x10x512x256 .f32) : Vec F S1x1x512x256 .f32 := View.ld x0 rC0
/-- Class 1's plane as the body loads it. -/
abbrev ldC1 (x0 : Vec F S1x10x512x256 .f32) : Vec F S1x1x512x256 .f32 := View.ld x0 rC1
/-- Class 2's plane as the body loads it. -/
abbrev ldC2 (x0 : Vec F S1x10x512x256 .f32) : Vec F S1x1x512x256 .f32 := View.ld x0 rC2
/-- Class 3's plane as the body loads it. -/
abbrev ldC3 (x0 : Vec F S1x10x512x256 .f32) : Vec F S1x1x512x256 .f32 := View.ld x0 rC3
/-- Class 4's plane as the body loads it. -/
abbrev ldC4 (x0 : Vec F S1x10x512x256 .f32) : Vec F S1x1x512x256 .f32 := View.ld x0 rC4
/-- Class 5's plane as the body loads it. -/
abbrev ldC5 (x0 : Vec F S1x10x512x256 .f32) : Vec F S1x1x512x256 .f32 := View.ld x0 rC5
/-- Class 6's plane as the body loads it. -/
abbrev ldC6 (x0 : Vec F S1x10x512x256 .f32) : Vec F S1x1x512x256 .f32 := View.ld x0 rC6
/-- Class 7's plane as the body loads it. -/
abbrev ldC7 (x0 : Vec F S1x10x512x256 .f32) : Vec F S1x1x512x256 .f32 := View.ld x0 rC7
/-- Class 8's plane as the body loads it. -/
abbrev ldC8 (x0 : Vec F S1x10x512x256 .f32) : Vec F S1x1x512x256 .f32 := View.ld x0 rC8
/-- Class 9's plane as the body loads it. -/
abbrev ldC9 (x0 : Vec F S1x10x512x256 .f32) : Vec F S1x1x512x256 .f32 := View.ld x0 rC9

/-- The clipped target plane. -/
def vClip (x1 : Vec F S1x512x256 .i32) : IVec S512x256 32 := k0_pay4 (ldT x1)
/-- The validity factor plane. -/
def vValid (x1 : Vec F S1x512x256 .i32) : FVec F S512x256 .f32 := k0_pay5 (ldT x1)
/-- The maximum over classes 0 … 5. -/
def vMax6 (x0 : Vec F S1x10x512x256 .f32) : FVec F S512x256 .f32 :=
  k0_pay6 (ldC0 x0) (ldC1 x0) (ldC2 x0) (ldC3 x0) (ldC4 x0) (ldC5 x0)
/-- The maximum over all ten classes. -/
def vMax (x0 : Vec F S1x10x512x256 .f32) : FVec F S512x256 .f32 :=
  k0_pay7 (vMax6 x0) (ldC6 x0) (ldC7 x0) (ldC8 x0) (ldC9 x0)
/-- The sum of the shifted exponentials of classes 0 … 2. -/
def vSum3 (x0 : Vec F S1x10x512x256 .f32) : FVec F S512x256 .f32 :=
  k0_pay8 (vMax6 x0) (ldC6 x0) (ldC7 x0) (ldC8 x0) (ldC9 x0) (ldC0 x0) (ldC1 x0) (ldC2 x0)
/-- The sum of the shifted exponentials of all ten classes. -/
def vSum (x0 : Vec F S1x10x512x256 .f32) : FVec F S512x256 .f32 :=
  k0_pay9 (vMax x0) (vSum3 x0) (ldC3 x0) (ldC4 x0) (ldC5 x0) (ldC6 x0) (ldC7 x0) (ldC8 x0) (ldC9 x0)
/-- Its logarithm. -/
def vLogSum (x0 : Vec F S1x10x512x256 .f32) : FVec F S512x256 .f32 :=
  k0_pay10 (vMax x0) (vSum3 x0) (ldC3 x0) (ldC4 x0) (ldC5 x0) (ldC6 x0) (ldC7 x0) (ldC8 x0) (ldC9 x0)
/-- The entropy accumulated over classes 0, 1. -/
def vEnt2 (x0 : Vec F S1x10x512x256 .f32) : FVec F S512x256 .f32 := k0_pay13 (vMax x0) (vSum x0) (ldC0 x0) (ldC1 x0)
/-- The cross entropy accumulated over classes 0, 1. -/
def vCe2 (x0 : Vec F S1x10x512x256 .f32) (x1 : Vec F S1x512x256 .i32) : FVec F S512x256 .f32 :=
  k0_pay14 (vClip x1) (vMax x0) (vLogSum x0) (ldC0 x0) (ldC1 x0)
/-- Class 2's probability. -/
def vP2 (x0 : Vec F S1x10x512x256 .f32) : FVec F S512x256 .f32 := k0_pay16 (vMax x0) (vSum x0) (ldC2 x0)
/-- Class 2's log-probability. -/
def vLp2 (x0 : Vec F S1x10x512x256 .f32) : FVec F S512x256 .f32 := k0_pay17 (vMax x0) (vLogSum x0) (ldC2 x0)
/-- The entropy accumulated over classes 0 … 4. -/
def vEnt5 (x0 : Vec F S1x10x512x256 .f32) : FVec F S512x256 .f32 :=
  k0_pay20 (vMax x0) (vSum x0) (vEnt2 x0) (vP2 x0) (ldC3 x0) (ldC4 x0)
/-- The cross entropy accumulated over classes 0 … 4. -/
def vCe5 (x0 : Vec F S1x10x512x256 .f32) (x1 : Vec F S1x512x256 .i32) : FVec F S512x256 .f32 :=
  k0_pay21 (vClip x1) (vMax x0) (vLogSum x0) (vCe2 x0 x1) (vLp2 x0) (ldC3 x0) (ldC4 x0)
/-- The entropy accumulated over classes 0 … 6. -/
def vEnt7 (x0 : Vec F S1x10x512x256 .f32) : FVec F S512x256 .f32 :=
  k0_pay24 (vMax x0) (vSum x0) (vEnt5 x0) (ldC5 x0) (ldC6 x0)
/-- The cross entropy accumulated over classes 0 … 6. -/
def vCe7 (x0 : Vec F S1x10x512x256 .f32) (x1 : Vec F S1x512x256 .i32) : FVec F S512x256 .f32 :=
  k0_pay25 (vClip x1) (vMax x0) (vLogSum x0) (vCe5 x0 x1) (ldC5 x0) (ldC6 x0)
/-- Class 7's log-probability. -/
def vLp7 (x0 : Vec F S1x10x512x256 .f32) : FVec F S512x256 .f32 := k0_pay27 (vMax x0) (vLogSum x0) (ldC7 x0)
/-- Class 7's entropy term. -/
def vTerm7 (x0 : Vec F S1x10x512x256 .f32) : FVec F S512x256 .f32 := k0_pay28 (vMax x0) (vSum x0) (ldC7 x0)
/-- The entropy over all ten classes: what the body stores in its second output block. -/
def vEnt (x0 : Vec F S1x10x512x256 .f32) : FVec F S512x256 .f32 :=
  k0_pay31 (vMax x0) (vSum x0) (vEnt7 x0) (vTerm7 x0) (ldC8 x0) (ldC9 x0)
/-- The cross entropy over all ten classes times the validity factor: what the body stores in its first output block. -/
def vCe (x0 : Vec F S1x10x512x256 .f32) (x1 : Vec F S1x512x256 .i32) : FVec F S512x256 .f32 :=
  k0_pay32 (vClip x1) (vValid x1) (vMax x0) (vLogSum x0) (vCe7 x0 x1) (vLp7 x0) (ldC8 x0) (ldC9 x0)

/-- The first output block (the masked cross entropy) after the body: its one store, of the whole block. -/
def ceBlk (x0 : Vec F S1x10x512x256 .f32) (x1 : Vec F S1x512x256 .i32) : Vec F S1x512x256 .f32 :=
  View.canon [⟨rT, k0_pay1 (vCe x0 x1)⟩]
/-- The second output block (the entropy) after the body: its one store, of the whole block. -/
def entBlk (x0 : Vec F S1x10x512x256 .f32) : Vec F S1x512x256 .f32 :=
  View.canon [⟨rT, k0_pay2 (vEnt x0)⟩]

end Cert.KernelIdeal.Hand

end
-- ==== Proof.KIFrame.lean ====
/-
  The frame of the program: it runs to the end, nothing faults, and its two argument arrays end as they were launched.
  The program is one pipelined region over a grid of 8 × 2 points followed by seventy-seven host operations.
  The region stages, per point, one batch row's 10 × 512 × 256 block of scores and the matching 512 × 256 block of targets, runs the body,
  and writes two 512 × 256 blocks back; the body reads only its two input blocks (and, idly, its output buffers) and stores each output
  block whole, so what it leaves is a function of the input blocks alone (`ceBlk`, `entBlk`). The host operations after the region each
  write a buffer of their own and none of the four arrays the region stages, so the arrays keep the region's exit contents; the two
  arguments are input arrays of the region, which it only reads, so they end at their launch contents. Stated at any float family; the run's post names every output array, which the value claim reads.
-/
import proofs.«405973_j68616397521419_1_alg».proof.Proof.Gen.KernelIdeal.Launch
import proofs.«405973_j68616397521419_1_alg».proof.Proof.Gen.KernelIdeal.Skeleton
import proofs.«405973_j68616397521419_1_alg».proof.Proof.Gen.KernelIdeal.Points
import proofs.«405973_j68616397521419_1_alg».proof.Proof.KIBody
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The seven stretches of host operations that follow the region, in order. -/
abbrev tailOps : List (List (HloOp τ sig (Elt F))) :=
  [hostOps1, hostOps1_1, hostOps1_2, hostOps1_3, hostOps1_4, hostOps1_5, hostOps1_6]

/-- Core `c`'s buffer contents when the region is entered: nothing runs before the region, so the launch contents. -/
abbrev V0 (c : Dev nD) : Valuation τ sig (Elt F) :=
  StableHlo.after (List.flatten ([] : List (List (HloOp τ sig (Elt F))))) (fun b => m (c, b))
/-- The same read at a reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

set_option maxHeartbeats 4000000 in
/-- The program is the region continued by the seven stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5, StableHlo.seq hostOps1_6]) :=
  Pipeline.hmain_around cfgs 0 defs₀ 𝒱₀ m main [] tailOps (by simp only [List.Forall]) (by simp only [List.Forall]) main_chain

/-- The later operations touch only the region's arrays and the buffers that bypass it. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
/-- And none writes an array the region stages: each writes its own result buffer only. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl
  · simp only [hostOps1, List.mem_cons, List.mem_nil_iff, or_false] at hop
    rcases hop with rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_1, List.mem_cons, List.mem_nil_iff, or_false] at hop
    rcases hop with rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_2, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_3, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_4, List.mem_cons, List.mem_nil_iff, or_false] at hop
    rcases hop with rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_5, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_6, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- Nothing runs before the region: it finds each argument as launched. -/
theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The scores' staging buffer holds the point's block at every point, for any proof data over these arrays whose body leaves it there. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the targets' staging buffer. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's triple -/

/-- The body's one store into an output block covers the block. -/
theorem coverT (p0 : Vec F S1x512x256 .f32) (y : S1x512x256.Idx) :
    ∃ pc ∈ ([⟨rT, p0⟩] : List (View.Piece (Elt F) S1x512x256 .f32)), y ∈ pc.1.set :=
  View.cover_of_tiled [⟨rT, p0⟩] S1x512x256.size (by rfl) y

set_option maxHeartbeats 4000000 in
/-- The body on whole staging buffers, the inputs' at contents `x0`, `x1` and the outputs' at anything, runs to its end
    holding the inputs' as they were and the outputs' at `ceBlk x0 x1` and `entBlk x0`. -/
theorem sound_kernel (c : Dev nD) (E : Set ℕ) (i : grid0.Coords)
    (arg2 : Memref sig .tc .vmem S1x10x512x256 .f32) (harg2 : arg2.IsWhole) (arg3 : Memref sig .tc .vmem S1x512x256 .i32) (harg3 : arg3.IsWhole)
    (arg4 : Memref sig .tc .vmem S1x512x256 .f32) (harg4 : arg4.IsWhole) (arg5 : Memref sig .tc .vmem S1x512x256 .f32) (harg5 : arg5.IsWhole)
    (x0 : Vec F S1x10x512x256 .f32) (x1 : Vec F S1x512x256 .i32) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1 ∗ owns (c : Thread nD τ) arg4 fullShare (ceBlk x0 x1) ∗ owns (c : Thread nD τ) arg5 fullShare (entBlk x0)) -∗ K ⟨⟩))
      ⊢ wp frame (wpE (defs₀ (F := F)) Variants.none c none) E (cc0__entropy_ce_kernel i arg2 harg2 arg3 harg3 arg4 harg4 arg5 harg5) K := by
  simp only [cc0__entropy_ce_kernel_eq_skeleton]; unfold cc0__entropy_ce_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverT _)
  iexists _; isplitr
  swap; · iexact H3
  ipureintro
  exact View.read_writes_eq_canon _ _ _ (coverT _)

/-! ## The pipeline's proof data -/

/-- The proof data on core `c`: the arrays as the region finds them; after the body at point `t` each input's buffer at its block
    and each output's at the body's function of the two input blocks; the invariant the scoped rest, untouched; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => ceBlk (iblk m c 0 t) (iblk m c 1 t)
    | ⟨3, _⟩ => entBlk (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = ceBlk (iblk m c 0 t) (iblk m c 1 t) := by dsimp only [dats]
theorem after0_3 (c : Dev nD) (t : Fin cfg0.N) : (dats m 0 c).after 3 t = entBlk (iblk m c 0 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the triple applies; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 4000000 in
set_option backward.isDefEq.respectTransparency.types false in
/-- Every weakly fair execution of the program terminates, and every final state has each staged array at what the proof data
    computes and every other unscoped buffer as the seven stretches leave it from the region's exit contents. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: the program runs and its two arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩) (run_main m ρ)

end Cert.KernelIdeal.Hand

end
-- ==== Proof.TailSpec.lean ====
/-
  What both programs do with the two maps. Given the masked cross-entropy map `ce`, the entropy map `ent` (both 8 × 512 × 512)
  and the targets `t`, both programs form: the validity factor (1 unless the target is the ignored class 10) and the number of valid
  pixels; the targets clipped into the classes 0 … 9; per class the count of valid pixels and the sum of entropies over them
  (two accumulating scatters over the flattened maps); the class weight
  `w = [count > 0 ∧ n > 0] · (n − count) / max (n, 1) · (1 + ½ · [count > 0] · entsum / max (count, 1))`; the weight of each pixel's clipped
  class times its validity factor (a gather of the ten weights); and finally `Σ ce · weight / (n + 1e-6)`.
  The operations are written once, in the order the programs apply them, at any float family.
-/
import Idealize.ShloMosaic.PureOps

noncomputable section

namespace Cert.Tail

open Idealize.ShloMosaic

abbrev S0 : Shape := ⟨0, ![]⟩
abbrev S3 : Shape := ⟨3, ![8, 512, 512]⟩
abbrev SF : Shape := ⟨1, ![2097152]⟩
abbrev SC : Shape := ⟨1, ![10]⟩
abbrev SF1 : Shape := ⟨2, ![2097152, 1]⟩
abbrev S31 : Shape := ⟨4, ![8, 512, 512, 1]⟩

theorem bc_S0_S3 : S0.BroadcastsInDim S3 (![] : Fin 0 → Fin S3.rank) := by decide
theorem red_S3_S0 : S3.ReducesTo [0, 1, 2] S0 := by decide
theorem pos_S0 : 0 < S0.numel := by decide
theorem sc_S3_SF : S3.ShapeCasts SF := by decide
theorem bc_S0_SC : S0.BroadcastsInDim SC (![] : Fin 0 → Fin SC.rank) := by decide
theorem bc_SF_SF1 : SF.BroadcastsInDim SF1 (![0] : Fin 1 → Fin SF1.rank) := by decide
theorem bc_S3_S31 : S3.BroadcastsInDim S31 (![0, 1, 2] : Fin 3 → Fin S31.rank) := by decide
theorem scat_wf : ScatterDims.WF SC SF1 SF [] [0] [0] 1 := by decide
theorem gath_wf : GatherDims.WF SC S31 S3 [] [0] [] [0] [] 3 ![1] := by decide

/-- The accumulating scatter of a flattened map into the ten classes. -/
def scat : ScatterDims SC SF1 SF where
  updateWindowDims := []
  insertedWindowDims := [0]
  scatterDimsToOperandDims := [0]
  indexVectorDim := 1
  wf := scat_wf
/-- The read of the ten class weights at each pixel's class. -/
def gath : GatherDims SC S31 S3 where
  offsetDims := []
  collapsedSliceDims := [0]
  operandBatchingDims := []
  startIndicesBatchingDims := []
  startIndexMap := [0]
  indexVectorDim := 3
  sliceSizes := ![1]
  wf := gath_wf

variable {F : FTy → Type} [FloatOps F]

/-- The validity factor: 1 unless the target is the ignored class 10. -/
def valid (t : IVec S3 32) : FVec F S3 .f32 :=
  uitofp (F := F) .f32 (cmpi .ne t (broadcastInDim S3 ![] bc_S0_S3 (constantI S0 32 10#32)))

/-- The number of valid pixels. -/
def nvalid (t : IVec S3 32) : FVec F S0 .f32 :=
  Host.reduceAdd (valid (F := F) t) (constant S0 .f32 0x00000000#32) red_S3_S0 pos_S0

/-- The targets clipped into the classes 0 … 9. -/
def tclip (t : IVec S3 32) : IVec S3 32 :=
  minsi (broadcastInDim S3 ![] bc_S0_S3 (id (constantI S0 32 9#32)))
    (maxsi (broadcastInDim S3 ![] bc_S0_S3 (id (constantI S0 32 0#32))) t)

/-- The clipped targets, flattened and given a trailing unit axis: the scatters' index operand. -/
def tflat1 (t : IVec S3 32) : IVec SF1 32 :=
  broadcastInDim SF1 ![0] bc_SF_SF1 (shapeCast SF (tclip t) sc_S3_SF)

/-- The validity factor, flattened. -/
def vflat (t : IVec S3 32) : FVec F SF .f32 := shapeCast SF (valid (F := F) t) sc_S3_SF

/-- Per class, the number of valid pixels. -/
def counts (t : IVec S3 32) : FVec F SC .f32 :=
  Host.scatterAdd scat (broadcastInDim SC ![] bc_S0_SC (constant S0 .f32 0x00000000#32)) (tflat1 t) (vflat (F := F) t)

/-- Per class, the sum of the entropies of its valid pixels. -/
def entsum (ent : FVec F S3 .f32) (t : IVec S3 32) : FVec F SC .f32 :=
  Host.scatterAdd scat (broadcastInDim SC ![] bc_S0_SC (constant S0 .f32 0x00000000#32)) (tflat1 t)
    (mulf (shapeCast SF ent sc_S3_SF) (vflat (F := F) t))

/-- The base weight of a class: `(n − count) / max (n, 1)` where the class and the image have valid pixels, else 0. -/
def wbase (t : IVec S3 32) : FVec F SC .f32 :=
  select
    (andi (cmpf (F := F) .ogt (counts (F := F) t) (broadcastInDim SC ![] bc_S0_SC (constant S0 .f32 0x00000000#32)))
      (broadcastInDim SC ![] bc_S0_SC (cmpf (F := F) .ogt (nvalid (F := F) t) (constant S0 .f32 0x00000000#32))))
    (Host.divf (subf (broadcastInDim SC ![] bc_S0_SC (nvalid (F := F) t)) (counts (F := F) t))
      (broadcastInDim SC ![] bc_S0_SC (maximumf (nvalid (F := F) t) (constant S0 .f32 0x3F800000#32))))
    (broadcastInDim SC ![] bc_S0_SC (id (constant S0 .f32 0x00000000#32)))

/-- The mean entropy of a class: `entsum / max (count, 1)` where the class has valid pixels, else 0. -/
def entmean (ent : FVec F S3 .f32) (t : IVec S3 32) : FVec F SC .f32 :=
  select
    (cmpf (F := F) .ogt (counts (F := F) t) (broadcastInDim SC ![] bc_S0_SC (constant S0 .f32 0x00000000#32)))
    (Host.divf (entsum ent t)
      (maximumf (counts (F := F) t) (broadcastInDim SC ![] bc_S0_SC (constant S0 .f32 0x3F800000#32))))
    (broadcastInDim SC ![] bc_S0_SC (id (constant S0 .f32 0x00000000#32)))

/-- The combined class weights: `wbase · (1 + ½ · entmean)`. -/
def wcomb (ent : FVec F S3 .f32) (t : IVec S3 32) : FVec F SC .f32 :=
  mulf (wbase (F := F) t)
    (addf (broadcastInDim SC ![] bc_S0_SC (constant S0 .f32 0x3F800000#32))
      (mulf (broadcastInDim SC ![] bc_S0_SC (constant S0 .f32 0x3F000000#32)) (entmean ent t)))

/-- The clipped class as the gather reads it: a negative index would be taken from the end (never met after the clip). -/
def tnorm (t : IVec S3 32) : IVec S3 32 :=
  select (cmpi .slt (tclip t) (broadcastInDim S3 ![] bc_S0_S3 (constantI S0 32 0#32)))
    (addi (tclip t) (broadcastInDim S3 ![] bc_S0_S3 (constantI S0 32 10#32))) (tclip t)

/-- Each pixel's weight: its clipped class's combined weight times its validity factor. -/
def wmap (ent : FVec F S3 .f32) (t : IVec S3 32) : FVec F S3 .f32 :=
  mulf (Host.gather gath (wcomb ent t) (broadcastInDim S31 ![0, 1, 2] bc_S3_S31 (tnorm t))) (valid (F := F) t)

/-- The result: the weighted sum of the cross-entropy map over the number of valid pixels plus 1e-6. -/
def tail (ce ent : FVec F S3 .f32) (t : IVec S3 32) : FVec F S0 .f32 :=
  Host.divf (Host.reduceAdd (mulf ce (wmap ent t)) (constant S0 .f32 0x00000000#32) red_S3_S0 pos_S0)
    (addf (nvalid (F := F) t) (constant S0 .f32 0x358637BD#32))

end Cert.Tail

end
-- ==== Proof.KITail.lean ====
/-
  The seventy-seven host operations after the region, as one function: from any contents of the buffers, the result buffer ends at
  the shared tail (`Cert.Tail.tail`) of the first output array (the masked cross-entropy map), the second (the entropy map) and the targets.
  Each operation's result is its function of its operands' contents; composed over the seven stretches that is the tail's own term, once the
  carrying of contents to a called function's buffer type and back (the identity) is dropped.
-/
import proofs.«405973_j68616397521419_1_alg».proof.Proof.Gen.KernelIdeal.Launch
import proofs.«405973_j68616397521419_1_alg».proof.Proof.TailSpec
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-- Contents carried to a typed reference's buffer type and back are the contents. -/
theorem ofBuf_toBuf {T : BufTy} (x : TRef sig T) (v : T.Contents (Elt F)) : x.ofBuf (x.toBuf v) = v := by
  obtain ⟨r, h, _, _⟩ := x; subst h; rfl

set_option maxRecDepth 8192 in
set_option maxHeartbeats 4000000 in
/-- The result of the seven stretches from any contents `W`. -/
theorem tail_after (W : Valuation τ sig (Elt F)) :
    StableHlo.after (List.flatten ([hostOps1, hostOps1_1, hostOps1_2, hostOps1_3, hostOps1_4, hostOps1_5, hostOps1_6] : List (List (HloOp τ sig (Elt F))))) W (Proc.devRef .tc main_v49)
      = Cert.Tail.tail (F := F) (W (Proc.devRef .tc main_v0_0)) (W (Proc.devRef .tc main_v0_1)) (W (Proc.devRef .tc main_arg1)) := by
  simp only [hostOps1, hostOps1_1, hostOps1_2, hostOps1_3, hostOps1_4, hostOps1_5, hostOps1_6, List.flatten_cons, List.flatten_nil,
    List.append_nil, List.cons_append, List.nil_append]
  after_results_simp <;> simp only [ofBuf_toBuf] <;> rfl

end Cert.KernelIdeal.Hand

end
-- ==== Proof.PixelSpec.lean ====
/-
  The two programs, one pixel at a time. A pixel carries ten class scores `v : Fin 10 → EReal` and one target word `t`.
  Both programs form the softmax `p c = exp (v c − M) / S` with `M` the largest score and `S = Σ exp (v c − M)`, the
  entropy-like quantity `− Σ p c · log (p c + ε)`, and the cross entropy `−(v k − M − log S)` at the class
  `k = clip (t, 0, 9)`, multiplied by `1` unless `t` is the ignored class `10`.
  The kernel folds its maxima, sums and differences from the left, class by class, and picks the class by a sum of
  ten products with 0/1 selectors (`k…` below, written in the kernel's own order of operations);
  the reference takes them as one maximum, one sum and one read at the clipped class (`c…`, the canonical form).
-/
import Idealize.ShloMosaic.PureOps.Ideal

noncomputable section

namespace Cert.Pix

open Idealize.ShloMosaic

/-- The shift `ε` both programs add inside the logarithm (the f32 nearest to 1e-8). -/
def eps : EReal := Ideal.ofBits .f32 0x322BCC77#32

/-- The zero both programs start their sums from. -/
def zero : EReal := Ideal.ofBits .f32 0x00000000#32

/-- The target clipped into the classes `0 … 9` (signed minimum and maximum of 32-bit words). -/
def tclip (t : BitVec 32) : BitVec 32 := IntOp.minsi 9#32 (IntOp.maxsi 0#32 t)

/-- `1` unless the target is the ignored class `10`: the compare's bit, widened without sign and read as a signed word
    (the kernel's conversion). -/
def validS (t : BitVec 32) : EReal := ((((IntOp.cmpi .ne t 10#32).setWidth 32).toInt : ℝ) : EReal)

/-- The same bit read as an unsigned number (the host's conversion). -/
def validU (t : BitVec 32) : EReal := ((((IntOp.cmpi .ne t 10#32)).toNat : ℝ) : EReal)

/-- `1` when the clipped target is the class word `c`, else `0` (the kernel's selector). -/
def sel (t c : BitVec 32) : EReal := ((((IntOp.cmpi .eq (tclip t) c).setWidth 32).toInt : ℝ) : EReal)

/-! ## The kernel's order -/

/-- The running maximum over the ten classes, from the left. -/
def kmax (v : Fin 10 → EReal) : EReal :=
  max (max (max (max (max (max (max (max (max (v 0) (v 1)) (v 2)) (v 3)) (v 4)) (v 5)) (v 6)) (v 7)) (v 8)) (v 9)

/-- A score less the maximum. -/
def ksh (v : Fin 10 → EReal) (c : Fin 10) : EReal := v c - kmax v

/-- Its exponential. -/
def kex (v : Fin 10 → EReal) (c : Fin 10) : EReal := Ideal.exp (ksh v c)

/-- The sum of the exponentials, from the left, starting at zero. -/
def ksum (v : Fin 10 → EReal) : EReal :=
  (((((((((zero + kex v 0) + kex v 1) + kex v 2) + kex v 3) + kex v 4) + kex v 5) + kex v 6) + kex v 7) + kex v 8) + kex v 9

/-- The softmax probability of a class. -/
def kp (v : Fin 10 → EReal) (c : Fin 10) : EReal := Ideal.div (kex v c) (ksum v)

/-- The log-probability of a class. -/
def klp (v : Fin 10 → EReal) (c : Fin 10) : EReal := ksh v c - Ideal.log (ksum v)

/-- One class's term of the entropy. -/
def kterm (v : Fin 10 → EReal) (c : Fin 10) : EReal := kp v c * Ideal.log (kp v c + eps)

/-- The entropy as the kernel accumulates it: zero less each term in turn. -/
def kent (v : Fin 10 → EReal) : EReal :=
  (((((((((zero - kterm v 0) - kterm v 1) - kterm v 2) - kterm v 3) - kterm v 4) - kterm v 5) - kterm v 6) - kterm v 7) - kterm v 8) - kterm v 9

/-- The cross entropy as the kernel accumulates it: zero less each selector times log-probability in turn, times the
    validity factor. -/
def kce (v : Fin 10 → EReal) (t : BitVec 32) : EReal :=
  ((((((((((zero - sel t 0#32 * klp v 0) - sel t 1#32 * klp v 1) - sel t 2#32 * klp v 2) - sel t 3#32 * klp v 3)
    - sel t 4#32 * klp v 4) - sel t 5#32 * klp v 5) - sel t 6#32 * klp v 6) - sel t 7#32 * klp v 7) - sel t 8#32 * klp v 8)
    - sel t 9#32 * klp v 9) * validS t

/-! ## The canonical order -/

/-- The largest of the ten scores. -/
def cmax (v : Fin 10 → EReal) : EReal := Finset.univ.sup' Finset.univ_nonempty v

/-- The sum of the shifted exponentials. -/
def csum (v : Fin 10 → EReal) : EReal := ∑ c : Fin 10, Ideal.exp (v c - cmax v)

/-- The softmax probability of a class. -/
def cp (v : Fin 10 → EReal) (c : Fin 10) : EReal := Ideal.div (Ideal.exp (v c - cmax v)) (csum v)

/-- The log-probability of a class. -/
def clp (v : Fin 10 → EReal) (c : Fin 10) : EReal := (v c - cmax v) - Ideal.log (csum v)

/-- The entropy: minus the sum of `p · log (p + ε)`. -/
def cent (v : Fin 10 → EReal) : EReal := -(∑ c : Fin 10, cp v c * Ideal.log (cp v c + eps))

/-- The clipped target as a class: its word's value, which lies in `0 … 9` (anything else reads as class `0`, never met). -/
def tcls (t : BitVec 32) : Fin 10 := if h : (tclip t).toNat < 10 then ⟨(tclip t).toNat, h⟩ else 0

/-- The cross entropy: minus the log-probability at the clipped target, times the validity factor. -/
def cce (v : Fin 10 → EReal) (t : BitVec 32) : EReal := (-(clp v (tcls t))) * validU t

end Cert.Pix

end
-- ==== Proof.KIPixel.lean ====
/-
  The two output blocks of one call of the kernel body, read one pixel at a time. Every operation of the body is
  pointwise in the pixel except its loads, its stores and its shape casts, and those only add or drop unit axes or pick one
  class's plane: so at the pixel (h, w) the first output block holds the pixel-level cross entropy `Cert.Pix.kce` of the ten
  scores `x0[0, c, h, w]` and the target word `x1[0, h, w]`, and the second holds the pixel-level entropy `Cert.Pix.kent` of
  the ten scores. The loads and casts are read at explicit coordinates first; then each stage of the body, in the order in
  which the body computes it, is the matching pixel-level quantity, the two sides agreeing term by term.
-/
import proofs.«405973_j68616397521419_1_alg».proof.Proof.KIBody
import proofs.«405973_j68616397521419_1_alg».proof.Proof.PixelSpec
import Idealize.ShloMosaic.Lib.ValueIdx
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.ValueIdx

/-! ## Further pointwise operations read at an index -/

section Pointwise
variable {s : Shape} {φ : FTy} {n : Nat}

/-- An exponential at an index is the exponential of the element. -/
theorem exp_apply (a : FVec Ideal s φ) (i : s.Idx) : exp a i = Ideal.exp (a i) := rfl
/-- A logarithm at an index is the logarithm of the element. -/
theorem log_apply (a : FVec Ideal s φ) (i : s.Idx) : log a i = Ideal.log (a i) := rfl
/-- An integer comparison at an index compares the elements. -/
theorem cmpi_apply (p : CmpIPredicate) (a b : IVec s n) (i : s.Idx) : cmpi p a b i = IntOp.cmpi p (a i) (b i) := rfl
/-- A signed maximum at an index is the signed maximum of the elements. -/
theorem maxsi_apply (a b : IVec s n) (i : s.Idx) : maxsi a b i = IntOp.maxsi (a i) (b i) := rfl
/-- A signed minimum at an index is the signed minimum of the elements. -/
theorem minsi_apply (a b : IVec s n) (i : s.Idx) : minsi a b i = IntOp.minsi (a i) (b i) := rfl
/-- A signed conversion to f32 at an index, at the extended reals, is the element's signed value. -/
theorem sitofp_ideal_apply (x : IVec s n) (i : s.Idx) :
    (sitofp .f32 x : FVec Ideal s .f32) i = (((x i).toInt : ℝ) : EReal) := rfl

end Pointwise

/-! ## The casts and the loads at explicit coordinates -/

section Layout
variable {α : Type}

/-- A `[1, 1, 512, 256]` plane cast to `[512, 256]` reads, at `(h, w)`, the plane at `(0, 0, h, w)`. -/
theorem cast4_apply (y : S1x1x512x256.Idx → α) (h : Fin 512) (w : Fin 256) :
    shapeCast S512x256 y shapeCasts_S1x1x512x256_S512x256 (ix2 h w) = y (ix4 (0 : Fin 1) (0 : Fin 1) h w) :=
  shapeCast_apply y _ _ _ (by
    rw [Shape.rowMajor_val_four, Shape.rowMajor_val_two]
    show ((0 * 1 + 0) * 512 + h.val) * 256 + w.val = h.val * 256 + w.val
    omega)

/-- A `[1, 512, 256]` block cast to `[512, 256]` reads, at `(h, w)`, the block at `(0, h, w)`. -/
theorem cast3_apply (y : S1x512x256.Idx → α) (h : Fin 512) (w : Fin 256) :
    shapeCast S512x256 y shapeCasts_S1x512x256_S512x256 (ix2 h w) = y (ix3 (0 : Fin 1) h w) :=
  shapeCast_1ab_ab_apply y _ h w

/-- A `[512, 256]` plane cast to `[1, 512, 256]` reads, at `(0, h, w)`, the plane at `(h, w)`. -/
theorem uncast3_apply (y : S512x256.Idx → α) (h : Fin 512) (w : Fin 256) :
    shapeCast S1x512x256 y shapeCasts_S512x256_S1x512x256 (ix3 (0 : Fin 1) h w) = y (ix2 h w) :=
  shapeCast_ab_1ab_apply y _ 0 h w

end Layout

/-- The load of class `k`'s plane reads, at `(0, 0, h, w)`, the score block at `(0, k, h, w)`. -/
theorem ldPlane_apply {Val : EltTy → Type} {e : EltTy} (X : S1x10x512x256.Idx → Val e) (k : Fin 10)
    (inb : ∀ a, (![0, k.val, 0, 0] : Fin 4 → Nat) a + S1x1x512x256.size a ≤ S1x10x512x256.size a)
    (h : Fin 512) (w : Fin 256) :
    View.ld X (Rect.unit (s := S1x10x512x256) ![0, k.val, 0, 0] S1x1x512x256.size inb) (ix4 (0 : Fin 1) (0 : Fin 1) h w)
      = X (ix4 (0 : Fin 1) k h w) := by
  refine congrArg X (funext fun a => Fin.ext ?_)
  match a with
  | ⟨0, _⟩ => show 0 + 1 * 0 = 0; rfl
  | ⟨1, _⟩ => show k.val + 1 * 0 = k.val; omega
  | ⟨2, _⟩ => show 0 + 1 * h.val = h.val; omega
  | ⟨3, _⟩ => show 0 + 1 * w.val = w.val; omega

section Loads
variable (x0 : Vec Ideal S1x10x512x256 .f32) (x1 : Vec Ideal S1x512x256 .i32) (h : Fin 512) (w : Fin 256)

theorem ldC0_apply : ldC0 x0 (ix4 (0 : Fin 1) (0 : Fin 1) h w) = x0 (ix4 (0 : Fin 1) (0 : Fin 10) h w) := ldPlane_apply x0 0 _ h w
theorem ldC1_apply : ldC1 x0 (ix4 (0 : Fin 1) (0 : Fin 1) h w) = x0 (ix4 (0 : Fin 1) (1 : Fin 10) h w) := ldPlane_apply x0 1 _ h w
theorem ldC2_apply : ldC2 x0 (ix4 (0 : Fin 1) (0 : Fin 1) h w) = x0 (ix4 (0 : Fin 1) (2 : Fin 10) h w) := ldPlane_apply x0 2 _ h w
theorem ldC3_apply : ldC3 x0 (ix4 (0 : Fin 1) (0 : Fin 1) h w) = x0 (ix4 (0 : Fin 1) (3 : Fin 10) h w) := ldPlane_apply x0 3 _ h w
theorem ldC4_apply : ldC4 x0 (ix4 (0 : Fin 1) (0 : Fin 1) h w) = x0 (ix4 (0 : Fin 1) (4 : Fin 10) h w) := ldPlane_apply x0 4 _ h w
theorem ldC5_apply : ldC5 x0 (ix4 (0 : Fin 1) (0 : Fin 1) h w) = x0 (ix4 (0 : Fin 1) (5 : Fin 10) h w) := ldPlane_apply x0 5 _ h w
theorem ldC6_apply : ldC6 x0 (ix4 (0 : Fin 1) (0 : Fin 1) h w) = x0 (ix4 (0 : Fin 1) (6 : Fin 10) h w) := ldPlane_apply x0 6 _ h w
theorem ldC7_apply : ldC7 x0 (ix4 (0 : Fin 1) (0 : Fin 1) h w) = x0 (ix4 (0 : Fin 1) (7 : Fin 10) h w) := ldPlane_apply x0 7 _ h w
theorem ldC8_apply : ldC8 x0 (ix4 (0 : Fin 1) (0 : Fin 1) h w) = x0 (ix4 (0 : Fin 1) (8 : Fin 10) h w) := ldPlane_apply x0 8 _ h w
theorem ldC9_apply : ldC9 x0 (ix4 (0 : Fin 1) (0 : Fin 1) h w) = x0 (ix4 (0 : Fin 1) (9 : Fin 10) h w) := ldPlane_apply x0 9 _ h w

/-- The zero offsets of a rank-3 block, however spelt. -/
theorem off3_zero : (![0, 0, 0] : Fin 3 → Nat) = fun _ => 0 := by funext a; fin_cases a <;> rfl

/-- The load of the whole target block reads the block. -/
theorem ldT_eq : ldT x1 = x1 := View.ld_unit_zero off3_zero _ x1

end Loads

section Planes
variable (x0 : Vec Ideal S1x10x512x256 .f32) (h : Fin 512) (w : Fin 256)

/-- Class 0's plane as the body casts it reads, at `(h, w)`, the score block at `(0, 0, h, w)`; and so on for each class. -/
theorem plane0_apply : shapeCast S512x256 (ldC0 x0) shapeCasts_S1x1x512x256_S512x256 (ix2 h w) = x0 (ix4 (0 : Fin 1) (0 : Fin 10) h w) :=
  (cast4_apply (ldC0 x0) h w).trans (ldC0_apply x0 h w)
theorem plane1_apply : shapeCast S512x256 (ldC1 x0) shapeCasts_S1x1x512x256_S512x256 (ix2 h w) = x0 (ix4 (0 : Fin 1) (1 : Fin 10) h w) :=
  (cast4_apply (ldC1 x0) h w).trans (ldC1_apply x0 h w)
theorem plane2_apply : shapeCast S512x256 (ldC2 x0) shapeCasts_S1x1x512x256_S512x256 (ix2 h w) = x0 (ix4 (0 : Fin 1) (2 : Fin 10) h w) :=
  (cast4_apply (ldC2 x0) h w).trans (ldC2_apply x0 h w)
theorem plane3_apply : shapeCast S512x256 (ldC3 x0) shapeCasts_S1x1x512x256_S512x256 (ix2 h w) = x0 (ix4 (0 : Fin 1) (3 : Fin 10) h w) :=
  (cast4_apply (ldC3 x0) h w).trans (ldC3_apply x0 h w)
theorem plane4_apply : shapeCast S512x256 (ldC4 x0) shapeCasts_S1x1x512x256_S512x256 (ix2 h w) = x0 (ix4 (0 : Fin 1) (4 : Fin 10) h w) :=
  (cast4_apply (ldC4 x0) h w).trans (ldC4_apply x0 h w)
theorem plane5_apply : shapeCast S512x256 (ldC5 x0) shapeCasts_S1x1x512x256_S512x256 (ix2 h w) = x0 (ix4 (0 : Fin 1) (5 : Fin 10) h w) :=
  (cast4_apply (ldC5 x0) h w).trans (ldC5_apply x0 h w)
theorem plane6_apply : shapeCast S512x256 (ldC6 x0) shapeCasts_S1x1x512x256_S512x256 (ix2 h w) = x0 (ix4 (0 : Fin 1) (6 : Fin 10) h w) :=
  (cast4_apply (ldC6 x0) h w).trans (ldC6_apply x0 h w)
theorem plane7_apply : shapeCast S512x256 (ldC7 x0) shapeCasts_S1x1x512x256_S512x256 (ix2 h w) = x0 (ix4 (0 : Fin 1) (7 : Fin 10) h w) :=
  (cast4_apply (ldC7 x0) h w).trans (ldC7_apply x0 h w)
theorem plane8_apply : shapeCast S512x256 (ldC8 x0) shapeCasts_S1x1x512x256_S512x256 (ix2 h w) = x0 (ix4 (0 : Fin 1) (8 : Fin 10) h w) :=
  (cast4_apply (ldC8 x0) h w).trans (ldC8_apply x0 h w)
theorem plane9_apply : shapeCast S512x256 (ldC9 x0) shapeCasts_S1x1x512x256_S512x256 (ix2 h w) = x0 (ix4 (0 : Fin 1) (9 : Fin 10) h w) :=
  (cast4_apply (ldC9 x0) h w).trans (ldC9_apply x0 h w)

end Planes

/-! ## The stages of the body at a pixel -/

section Stages
variable (x0 : Vec Ideal S1x10x512x256 .f32) (x1 : Vec Ideal S1x512x256 .i32) (h : Fin 512) (w : Fin 256)

/-- The clipped target at a pixel is the pixel's target word clipped. -/
theorem vClip_apply : vClip (F := Ideal) x1 (ix2 h w) = Cert.Pix.tclip (x1 (ix3 (0 : Fin 1) h w)) := by
  unfold vClip k0_pay4 k0_pay3
  rw [ldT_eq]
  simp only [minsi_apply, maxsi_apply, broadcast_apply, cast3_apply]
  rfl

/-- The validity factor at a pixel. -/
theorem vValid_apply : vValid (F := Ideal) x1 (ix2 h w) = Cert.Pix.validS (x1 (ix3 (0 : Fin 1) h w)) := by
  unfold vValid k0_pay5 k0_pay3
  rw [ldT_eq]
  simp only [sitofp_ideal_apply, extui_apply, cmpi_apply, broadcast_apply, cast3_apply]
  rfl

/-- The maximum over classes 0 … 5 at a pixel, folded from the left. -/
theorem vMax6_apply : vMax6 x0 (ix2 h w)
    = max (max (max (max (max (x0 (ix4 (0 : Fin 1) (0 : Fin 10) h w)) (x0 (ix4 (0 : Fin 1) (1 : Fin 10) h w)))
        (x0 (ix4 (0 : Fin 1) (2 : Fin 10) h w))) (x0 (ix4 (0 : Fin 1) (3 : Fin 10) h w)))
        (x0 (ix4 (0 : Fin 1) (4 : Fin 10) h w))) (x0 (ix4 (0 : Fin 1) (5 : Fin 10) h w)) := by
  unfold vMax6 k0_pay6
  simp only [maximumf_apply]
  rw [plane0_apply, plane1_apply, plane2_apply, plane3_apply, plane4_apply, plane5_apply]

/-- The maximum over all ten classes at a pixel is the pixel's running maximum. -/
theorem vMax_apply : vMax x0 (ix2 h w) = Cert.Pix.kmax (fun c : Fin 10 => x0 (ix4 (0 : Fin 1) c h w)) := by
  unfold vMax k0_pay7
  simp only [maximumf_apply, vMax6_apply]
  rw [plane6_apply, plane7_apply, plane8_apply, plane9_apply]
  rfl

/-- The same maximum, as the sum's first part names it. -/
theorem pay7_apply : k0_pay7 (vMax6 x0) (ldC6 x0) (ldC7 x0) (ldC8 x0) (ldC9 x0) (ix2 h w) = Cert.Pix.kmax (fun c : Fin 10 => x0 (ix4 (0 : Fin 1) c h w)) :=
  vMax_apply x0 h w

/-- The sum of the shifted exponentials of classes 0 … 2 at a pixel, from zero. -/
theorem vSum3_apply : vSum3 x0 (ix2 h w)
    = ((Cert.Pix.zero + Cert.Pix.kex (fun c : Fin 10 => x0 (ix4 (0 : Fin 1) c h w)) 0) + Cert.Pix.kex (fun c : Fin 10 => x0 (ix4 (0 : Fin 1) c h w)) 1) + Cert.Pix.kex (fun c : Fin 10 => x0 (ix4 (0 : Fin 1) c h w)) 2 := by
  unfold vSum3 k0_pay8
  simp only [addf_apply, subf_apply, mulf_apply, divf_apply, exp_apply, log_apply, broadcast_apply, sitofp_ideal_apply, extui_apply, cmpi_apply, pay7_apply]
  rw [plane0_apply, plane1_apply, plane2_apply]
  rfl

/-- The sum of the shifted exponentials of all ten classes at a pixel. -/
theorem vSum_apply : vSum x0 (ix2 h w) = Cert.Pix.ksum (fun c : Fin 10 => x0 (ix4 (0 : Fin 1) c h w)) := by
  unfold vSum k0_pay9
  simp only [addf_apply, subf_apply, mulf_apply, divf_apply, exp_apply, log_apply, broadcast_apply, sitofp_ideal_apply, extui_apply, cmpi_apply, vMax_apply, vSum3_apply]
  rw [plane3_apply, plane4_apply, plane5_apply, plane6_apply, plane7_apply, plane8_apply, plane9_apply]
  rfl

/-- The same sum, as its logarithm's payload names it. -/
theorem pay9_apply : k0_pay9 (vMax x0) (vSum3 x0) (ldC3 x0) (ldC4 x0) (ldC5 x0) (ldC6 x0) (ldC7 x0) (ldC8 x0) (ldC9 x0) (ix2 h w)
    = Cert.Pix.ksum (fun c : Fin 10 => x0 (ix4 (0 : Fin 1) c h w)) := vSum_apply x0 h w

/-- Its logarithm at a pixel. -/
theorem vLogSum_apply : vLogSum x0 (ix2 h w) = Ideal.log (Cert.Pix.ksum (fun c : Fin 10 => x0 (ix4 (0 : Fin 1) c h w))) := by
  unfold vLogSum k0_pay10
  simp only [log_apply, pay9_apply]

/-- The entropy accumulated over classes 0, 1 at a pixel. -/
theorem vEnt2_apply : vEnt2 x0 (ix2 h w) = (Cert.Pix.zero - Cert.Pix.kterm (fun c : Fin 10 => x0 (ix4 (0 : Fin 1) c h w)) 0) - Cert.Pix.kterm (fun c : Fin 10 => x0 (ix4 (0 : Fin 1) c h w)) 1 := by
  unfold vEnt2 k0_pay13 k0_pay11 k0_pay12
  simp only [addf_apply, subf_apply, mulf_apply, divf_apply, exp_apply, log_apply, broadcast_apply, sitofp_ideal_apply, extui_apply, cmpi_apply, vMax_apply, vSum_apply]
  rw [plane0_apply, plane1_apply]
  rfl

/-- The cross entropy accumulated over classes 0, 1 at a pixel. -/
theorem vCe2_apply : vCe2 x0 x1 (ix2 h w)
    = (Cert.Pix.zero - Cert.Pix.sel (x1 (ix3 (0 : Fin 1) h w)) 0#32 * Cert.Pix.klp (fun c : Fin 10 => x0 (ix4 (0 : Fin 1) c h w)) 0) - Cert.Pix.sel (x1 (ix3 (0 : Fin 1) h w)) 1#32 * Cert.Pix.klp (fun c : Fin 10 => x0 (ix4 (0 : Fin 1) c h w)) 1 := by
  unfold vCe2 k0_pay14 k0_pay11 k0_pay12
  simp only [addf_apply, subf_apply, mulf_apply, divf_apply, exp_apply, log_apply, broadcast_apply, sitofp_ideal_apply, extui_apply, cmpi_apply, vMax_apply, vLogSum_apply, vClip_apply]
  rw [plane0_apply, plane1_apply]
  rfl

/-- Class 2's probability at a pixel. -/
theorem vP2_apply : vP2 x0 (ix2 h w) = Cert.Pix.kp (fun c : Fin 10 => x0 (ix4 (0 : Fin 1) c h w)) 2 := by
  unfold vP2 k0_pay16 k0_pay15
  simp only [addf_apply, subf_apply, mulf_apply, divf_apply, exp_apply, log_apply, broadcast_apply, sitofp_ideal_apply, extui_apply, cmpi_apply, vMax_apply, vSum_apply]
  rw [plane2_apply]
  rfl

/-- Class 2's log-probability at a pixel. -/
theorem vLp2_apply : vLp2 x0 (ix2 h w) = Cert.Pix.klp (fun c : Fin 10 => x0 (ix4 (0 : Fin 1) c h w)) 2 := by
  unfold vLp2 k0_pay17 k0_pay15
  simp only [addf_apply, subf_apply, mulf_apply, divf_apply, exp_apply, log_apply, broadcast_apply, sitofp_ideal_apply, extui_apply, cmpi_apply, vMax_apply, vLogSum_apply]
  rw [plane2_apply]
  rfl

/-- The entropy accumulated over classes 0 … 4 at a pixel. -/
theorem vEnt5_apply : vEnt5 x0 (ix2 h w)
    = ((((Cert.Pix.zero - Cert.Pix.kterm (fun c : Fin 10 => x0 (ix4 (0 : Fin 1) c h w)) 0) - Cert.Pix.kterm (fun c : Fin 10 => x0 (ix4 (0 : Fin 1) c h w)) 1) - Cert.Pix.kterm (fun c : Fin 10 => x0 (ix4 (0 : Fin 1) c h w)) 2) - Cert.Pix.kterm (fun c : Fin 10 => x0 (ix4 (0 : Fin 1) c h w)) 3)
        - Cert.Pix.kterm (fun c : Fin 10 => x0 (ix4 (0 : Fin 1) c h w)) 4 := by
  unfold vEnt5 k0_pay20 k0_pay18 k0_pay19
  simp only [addf_apply, subf_apply, mulf_apply, divf_apply, exp_apply, log_apply, broadcast_apply, sitofp_ideal_apply, extui_apply, cmpi_apply, vMax_apply, vSum_apply, vEnt2_apply, vP2_apply]
  rw [plane3_apply, plane4_apply]
  rfl

/-- The cross entropy accumulated over classes 0 … 4 at a pixel. -/
theorem vCe5_apply : vCe5 x0 x1 (ix2 h w)
    = ((((Cert.Pix.zero - Cert.Pix.sel (x1 (ix3 (0 : Fin 1) h w)) 0#32 * Cert.Pix.klp (fun c : Fin 10 => x0 (ix4 (0 : Fin 1) c h w)) 0) - Cert.Pix.sel (x1 (ix3 (0 : Fin 1) h w)) 1#32 * Cert.Pix.klp (fun c : Fin 10 => x0 (ix4 (0 : Fin 1) c h w)) 1)
        - Cert.Pix.sel (x1 (ix3 (0 : Fin 1) h w)) 2#32 * Cert.Pix.klp (fun c : Fin 10 => x0 (ix4 (0 : Fin 1) c h w)) 2) - Cert.Pix.sel (x1 (ix3 (0 : Fin 1) h w)) 3#32 * Cert.Pix.klp (fun c : Fin 10 => x0 (ix4 (0 : Fin 1) c h w)) 3)
        - Cert.Pix.sel (x1 (ix3 (0 : Fin 1) h w)) 4#32 * Cert.Pix.klp (fun c : Fin 10 => x0 (ix4 (0 : Fin 1) c h w)) 4 := by
  unfold vCe5 k0_pay21 k0_pay18 k0_pay19
  simp only [addf_apply, subf_apply, mulf_apply, divf_apply, exp_apply, log_apply, broadcast_apply, sitofp_ideal_apply, extui_apply, cmpi_apply, vMax_apply, vLogSum_apply, vClip_apply, vCe2_apply, vLp2_apply]
  rw [plane3_apply, plane4_apply]
  rfl

/-- The entropy accumulated over classes 0 … 6 at a pixel. -/
theorem vEnt7_apply : vEnt7 x0 (ix2 h w)
    = ((((((Cert.Pix.zero - Cert.Pix.kterm (fun c : Fin 10 => x0 (ix4 (0 : Fin 1) c h w)) 0) - Cert.Pix.kterm (fun c : Fin 10 => x0 (ix4 (0 : Fin 1) c h w)) 1) - Cert.Pix.kterm (fun c : Fin 10 => x0 (ix4 (0 : Fin 1) c h w)) 2) - Cert.Pix.kterm (fun c : Fin 10 => x0 (ix4 (0 : Fin 1) c h w)) 3)
        - Cert.Pix.kterm (fun c : Fin 10 => x0 (ix4 (0 : Fin 1) c h w)) 4) - Cert.Pix.kterm (fun c : Fin 10 => x0 (ix4 (0 : Fin 1) c h w)) 5) - Cert.Pix.kterm (fun c : Fin 10 => x0 (ix4 (0 : Fin 1) c h w)) 6 := by
  unfold vEnt7 k0_pay24 k0_pay22 k0_pay23
  simp only [addf_apply, subf_apply, mulf_apply, divf_apply, exp_apply, log_apply, broadcast_apply, sitofp_ideal_apply, extui_apply, cmpi_apply, vMax_apply, vSum_apply, vEnt5_apply]
  rw [plane5_apply, plane6_apply]
  rfl

/-- The cross entropy accumulated over classes 0 … 6 at a pixel. -/
theorem vCe7_apply : vCe7 x0 x1 (ix2 h w)
    = ((((((Cert.Pix.zero - Cert.Pix.sel (x1 (ix3 (0 : Fin 1) h w)) 0#32 * Cert.Pix.klp (fun c : Fin 10 => x0 (ix4 (0 : Fin 1) c h w)) 0) - Cert.Pix.sel (x1 (ix3 (0 : Fin 1) h w)) 1#32 * Cert.Pix.klp (fun c : Fin 10 => x0 (ix4 (0 : Fin 1) c h w)) 1)
        - Cert.Pix.sel (x1 (ix3 (0 : Fin 1) h w)) 2#32 * Cert.Pix.klp (fun c : Fin 10 => x0 (ix4 (0 : Fin 1) c h w)) 2) - Cert.Pix.sel (x1 (ix3 (0 : Fin 1) h w)) 3#32 * Cert.Pix.klp (fun c : Fin 10 => x0 (ix4 (0 : Fin 1) c h w)) 3)
        - Cert.Pix.sel (x1 (ix3 (0 : Fin 1) h w)) 4#32 * Cert.Pix.klp (fun c : Fin 10 => x0 (ix4 (0 : Fin 1) c h w)) 4) - Cert.Pix.sel (x1 (ix3 (0 : Fin 1) h w)) 5#32 * Cert.Pix.klp (fun c : Fin 10 => x0 (ix4 (0 : Fin 1) c h w)) 5)
        - Cert.Pix.sel (x1 (ix3 (0 : Fin 1) h w)) 6#32 * Cert.Pix.klp (fun c : Fin 10 => x0 (ix4 (0 : Fin 1) c h w)) 6 := by
  unfold vCe7 k0_pay25 k0_pay22 k0_pay23
  simp only [addf_apply, subf_apply, mulf_apply, divf_apply, exp_apply, log_apply, broadcast_apply, sitofp_ideal_apply, extui_apply, cmpi_apply, vMax_apply, vLogSum_apply, vClip_apply, vCe5_apply]
  rw [plane5_apply, plane6_apply]
  rfl

/-- Class 7's log-probability at a pixel. -/
theorem vLp7_apply : vLp7 x0 (ix2 h w) = Cert.Pix.klp (fun c : Fin 10 => x0 (ix4 (0 : Fin 1) c h w)) 7 := by
  unfold vLp7 k0_pay27 k0_pay26
  simp only [addf_apply, subf_apply, mulf_apply, divf_apply, exp_apply, log_apply, broadcast_apply, sitofp_ideal_apply, extui_apply, cmpi_apply, vMax_apply, vLogSum_apply]
  rw [plane7_apply]
  rfl

/-- Class 7's entropy term at a pixel. -/
theorem vTerm7_apply : vTerm7 x0 (ix2 h w) = Cert.Pix.kterm (fun c : Fin 10 => x0 (ix4 (0 : Fin 1) c h w)) 7 := by
  unfold vTerm7 k0_pay28 k0_pay26
  simp only [addf_apply, subf_apply, mulf_apply, divf_apply, exp_apply, log_apply, broadcast_apply, sitofp_ideal_apply, extui_apply, cmpi_apply, vMax_apply, vSum_apply]
  rw [plane7_apply]
  rfl

/-- The entropy over all ten classes at a pixel is the pixel's entropy. -/
theorem vEnt_apply : vEnt x0 (ix2 h w) = Cert.Pix.kent (fun c : Fin 10 => x0 (ix4 (0 : Fin 1) c h w)) := by
  unfold vEnt k0_pay31 k0_pay29 k0_pay30
  simp only [addf_apply, subf_apply, mulf_apply, divf_apply, exp_apply, log_apply, broadcast_apply, sitofp_ideal_apply, extui_apply, cmpi_apply, vMax_apply, vSum_apply, vEnt7_apply, vTerm7_apply]
  rw [plane8_apply, plane9_apply]
  rfl

/-- The masked cross entropy over all ten classes at a pixel is the pixel's cross entropy. -/
theorem vCe_apply : vCe x0 x1 (ix2 h w) = Cert.Pix.kce (fun c : Fin 10 => x0 (ix4 (0 : Fin 1) c h w)) (x1 (ix3 (0 : Fin 1) h w)) := by
  unfold vCe k0_pay32 k0_pay29 k0_pay30
  simp only [addf_apply, subf_apply, mulf_apply, divf_apply, exp_apply, log_apply, broadcast_apply, sitofp_ideal_apply, extui_apply, cmpi_apply, vMax_apply, vLogSum_apply, vClip_apply, vValid_apply, vCe7_apply, vLp7_apply]
  rw [plane8_apply, plane9_apply]
  rfl

end Stages

/-! ## The two output blocks at a pixel -/

open Idealize.ShloMosaic Idealize.ShloMosaic.ValueIdx in
/-- The first output block at the pixel `(h, w)` is the pixel's masked cross entropy. -/
theorem ceBlk_apply (x0 : Vec Ideal S1x10x512x256 .f32) (x1 : Vec Ideal S1x512x256 .i32) (h : Fin 512) (w : Fin 256) :
    ceBlk (F := Ideal) x0 x1 (ix3 (0 : Fin 1) h w) = Cert.Pix.kce (fun c : Fin 10 => x0 (ix4 (0 : Fin 1) c h w)) (x1 (ix3 (0 : Fin 1) h w)) := by
  unfold ceBlk
  rw [View.canon_unit_zero off3_zero]
  unfold k0_pay1
  rw [uncast3_apply]
  exact vCe_apply x0 x1 h w

open Idealize.ShloMosaic Idealize.ShloMosaic.ValueIdx in
/-- The second output block at the pixel `(h, w)` is the pixel's entropy. -/
theorem entBlk_apply (x0 : Vec Ideal S1x10x512x256 .f32) (h : Fin 512) (w : Fin 256) :
    entBlk (F := Ideal) x0 (ix3 (0 : Fin 1) h w) = Cert.Pix.kent (fun c : Fin 10 => x0 (ix4 (0 : Fin 1) c h w)) := by
  unfold entBlk
  rw [View.canon_unit_zero off3_zero]
  unfold k0_pay2
  rw [uncast3_apply]
  exact vEnt_apply x0 h w

end Cert.KernelIdeal.Hand

end
-- ==== Proof.ArrSpec.lean ====
/-
  The two output maps as whole arrays. Pixel `j = (b, h, w)` of the 8 × 512 × 512 maps depends on the ten scores
  `x (b, k, h, w)`, `k = 0 … 9`, and on the one target `t (b, h, w)`; the masked cross-entropy map and the entropy map are the
  pixel functions of those, in the kernel's order of operations (`kceArr`, `kentArr`) and in the canonical order
  (`cceArr`, `centArr`). Where every score is a real the two orders agree, pixel by pixel.
-/
import proofs.«405973_j68616397521419_1_alg».proof.Proof.PixelSpec
import Idealize.ShloMosaic.Lib.ValueIdx

noncomputable section

namespace Cert.Arr

open Idealize.ShloMosaic Idealize.ShloMosaic.ValueIdx

/-- The scores' shape: batch, class, row, column. -/
abbrev SX : Shape := ⟨4, ![8, 10, 512, 512]⟩
/-- A map's shape: batch, row, column. -/
abbrev ST : Shape := ⟨3, ![8, 512, 512]⟩

/-- The ten scores of pixel `j`. -/
def scoresAt (x : SX.Idx → EReal) (j : ST.Idx) : Fin 10 → EReal :=
  fun k => x (ix4 (j 0 : Fin 8) k (j 1 : Fin 512) (j 2 : Fin 512))

theorem scoresAt_ix3 (x : SX.Idx → EReal) (b : Fin 8) (h w : Fin 512) :
    scoresAt x (ix3 b h w) = fun k => x (ix4 b k h w) := rfl

/-- The masked cross-entropy map, in the kernel's order. -/
def kceArr (x : SX.Idx → EReal) (t : ST.Idx → BitVec 32) : ST.Idx → EReal := fun j => Cert.Pix.kce (scoresAt x j) (t j)
/-- The entropy map, in the kernel's order. -/
def kentArr (x : SX.Idx → EReal) : ST.Idx → EReal := fun j => Cert.Pix.kent (scoresAt x j)
/-- The masked cross-entropy map, in the canonical order. -/
def cceArr (x : SX.Idx → EReal) (t : ST.Idx → BitVec 32) : ST.Idx → EReal := fun j => Cert.Pix.cce (scoresAt x j) (t j)
/-- The entropy map, in the canonical order. -/
def centArr (x : SX.Idx → EReal) : ST.Idx → EReal := fun j => Cert.Pix.cent (scoresAt x j)

theorem kceArr_ix3 (x : SX.Idx → EReal) (t : ST.Idx → BitVec 32) (b : Fin 8) (h w : Fin 512) :
    kceArr x t (ix3 b h w) = Cert.Pix.kce (fun k => x (ix4 b k h w)) (t (ix3 b h w)) := rfl
theorem kentArr_ix3 (x : SX.Idx → EReal) (b : Fin 8) (h w : Fin 512) :
    kentArr x (ix3 b h w) = Cert.Pix.kent (fun k => x (ix4 b k h w)) := rfl
theorem cceArr_ix3 (x : SX.Idx → EReal) (t : ST.Idx → BitVec 32) (b : Fin 8) (h w : Fin 512) :
    cceArr x t (ix3 b h w) = Cert.Pix.cce (fun k => x (ix4 b k h w)) (t (ix3 b h w)) := rfl
theorem centArr_ix3 (x : SX.Idx → EReal) (b : Fin 8) (h w : Fin 512) :
    centArr x (ix3 b h w) = Cert.Pix.cent (fun k => x (ix4 b k h w)) := rfl

end Cert.Arr

end
-- ==== Proof.KIArrays.lean ====
/-
  From the blocks to the whole maps. The region runs over 8 × 2 points; the point (b, q) stages the scores' block
  (b, 0, 0, q), of shape 1 × 10 × 512 × 256, and the targets' block (b, 0, q), of shape 1 × 512 × 256, and writes back the
  block (b, 0, q) of each of the two output maps. A block's coordinate on an axis is its block index times the block's
  extent plus the coordinate inside the block, so the pixel (h, w) of the output block at (b, q) is the pixel
  (b, h, 256 q + w) of the map, and the ten scores and the target the body reads for it are the arrays' entries of that same
  pixel. Hence each point writes back its block of the masked cross-entropy map, respectively of the entropy map, of the
  whole argument arrays; the sixteen blocks tile the 8 × 512 × 512 map — the pixel (b, h, w) lies in the block
  (b, 0, w / 256) — so each output array ends holding its map.
-/
import proofs.«405973_j68616397521419_1_alg».proof.Proof.KIFrame
import proofs.«405973_j68616397521419_1_alg».proof.Proof.KIPixel
import proofs.«405973_j68616397521419_1_alg».proof.Proof.ArrSpec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## One pixel of a block, one pixel of a map -/

/-- An index of a 1 × 512 × 256 block is (0, h, w): its leading coordinate ranges over one value. -/
theorem blockIdx_eq (y : S1x512x256.Idx) : y = ix3 (0 : Fin 1) (y 1 : Fin 512) (y 2 : Fin 256) := by
  rw [eq_ix3 y]; congr 1
  exact Fin.ext (by have h : (y 0).val < 1 := (y 0).isLt; show (y 0).val = 0; omega)

/-- The first output block at any of its indices: the pixel's cross entropy of the ten scores and the target word there. -/
theorem ceBlk_at (x0 : Vec Ideal S1x10x512x256 .f32) (x1 : Vec Ideal S1x512x256 .i32) (y : S1x512x256.Idx) :
    ceBlk (F := Ideal) x0 x1 y = Cert.Pix.kce (fun k : Fin 10 => x0 (ix4 (0 : Fin 1) k (y 1 : Fin 512) (y 2 : Fin 256))) (x1 y) := by
  refine (congrArg (ceBlk (F := Ideal) x0 x1) (blockIdx_eq y)).trans ((ceBlk_apply x0 x1 _ _).trans ?_)
  exact congrArg (fun z => Cert.Pix.kce (fun k : Fin 10 => x0 (ix4 (0 : Fin 1) k (y 1 : Fin 512) (y 2 : Fin 256))) (x1 z)) (blockIdx_eq y).symm

/-- The second output block at any of its indices: the pixel's entropy of the ten scores there. -/
theorem entBlk_at (x0 : Vec Ideal S1x10x512x256 .f32) (y : S1x512x256.Idx) :
    entBlk (F := Ideal) x0 y = Cert.Pix.kent (fun k : Fin 10 => x0 (ix4 (0 : Fin 1) k (y 1 : Fin 512) (y 2 : Fin 256))) :=
  (congrArg (entBlk (F := Ideal) x0) (blockIdx_eq y)).trans (entBlk_apply x0 _ _)

/-- The masked cross-entropy map at any pixel. -/
theorem kceArr_at (X : Cert.Arr.SX.Idx → EReal) (T : Cert.Arr.ST.Idx → BitVec 32) (j : Cert.Arr.ST.Idx) :
    Cert.Arr.kceArr X T j = Cert.Pix.kce (fun k : Fin 10 => X (ix4 (j 0 : Fin 8) k (j 1 : Fin 512) (j 2 : Fin 512))) (T j) := rfl
/-- The entropy map at any pixel. -/
theorem kentArr_at (X : Cert.Arr.SX.Idx → EReal) (j : Cert.Arr.ST.Idx) :
    Cert.Arr.kentArr X j = Cert.Pix.kent (fun k : Fin 10 => X (ix4 (j 0 : Fin 8) k (j 1 : Fin 512) (j 2 : Fin 512))) := rfl

/-- A block of the cross-entropy output holds the map's pixel `j` at the index `y` as soon as its two input blocks hold,
    at `y`'s row and column, the ten scores and the target of pixel `j`. -/
theorem ce_of_reads (X : Cert.Arr.SX.Idx → EReal) (T : Cert.Arr.ST.Idx → BitVec 32)
    (x0 : Vec Ideal S1x10x512x256 .f32) (x1 : Vec Ideal S1x512x256 .i32) (y : S1x512x256.Idx) (j : Cert.Arr.ST.Idx)
    (h0 : ∀ k : Fin 10, x0 (ix4 (0 : Fin 1) k (y 1 : Fin 512) (y 2 : Fin 256)) = X (ix4 (j 0 : Fin 8) k (j 1 : Fin 512) (j 2 : Fin 512)))
    (h1 : x1 y = T j) :
    ceBlk (F := Ideal) x0 x1 y = Cert.Arr.kceArr X T j := by
  rw [ceBlk_at, kceArr_at, h1]
  congr 1
  funext k
  exact h0 k

/-- The same for the entropy output, which reads the scores only. -/
theorem ent_of_reads (X : Cert.Arr.SX.Idx → EReal)
    (x0 : Vec Ideal S1x10x512x256 .f32) (y : S1x512x256.Idx) (j : Cert.Arr.ST.Idx)
    (h0 : ∀ k : Fin 10, x0 (ix4 (0 : Fin 1) k (y 1 : Fin 512) (y 2 : Fin 256)) = X (ix4 (j 0 : Fin 8) k (j 1 : Fin 512) (j 2 : Fin 512))) :
    entBlk (F := Ideal) x0 y = Cert.Arr.kentArr X j := by
  rw [entBlk_at, kentArr_at]
  congr 1
  funext k
  exact h0 k

/-! ## The cross-entropy map -/

/-- The index maps, decided over the sixteen points: at each point the scores' block sits at the output block's batch row,
    row band and column band, on class band 0, and the targets' block at the output block's own index. -/
theorem ce_blocks_aligned : ∀ t : Fin cfg0.N,
    win0_0.index t (0 : Fin 4) = win0_2.index t (0 : Fin 3)
    ∧ win0_0.index t (1 : Fin 4) = 0
    ∧ win0_0.index t (2 : Fin 4) = win0_2.index t (1 : Fin 3)
    ∧ win0_0.index t (3 : Fin 4) = win0_2.index t (2 : Fin 3)
    ∧ win0_1.index t (0 : Fin 3) = win0_2.index t (0 : Fin 3)
    ∧ win0_1.index t (1 : Fin 3) = win0_2.index t (1 : Fin 3)
    ∧ win0_1.index t (2 : Fin 3) = win0_2.index t (2 : Fin 3) :=
  (by decide +kernel : ∀ t : Fin grid0.N, _)

/-- Every block (b, 0, q) of the cross-entropy map is some point's. -/
theorem ce_blocks_onto : ∀ (b : Fin 8) (q : Fin 2), ∃ t : Fin cfg0.N, win0_2.index t = ![b.val, 0, q.val] :=
  (by decide +kernel : ∀ (b : Fin 8) (q : Fin 2), ∃ t : Fin grid0.N, win0_2.index t = ![b.val, 0, q.val])

/-- What point `t` writes back to the first output array is its block of the cross-entropy map of the argument arrays. -/
theorem ce_flushed (c : Dev nD) (t : Fin cfg0.N) :
    (dats (F := Ideal) m 0 c).flushed 2 t
      = ((cfg0.win 2).blk t).view.read (Elt Ideal) (Cert.Arr.kceArr (V m c main_arg0) (V m c main_arg1)) := by
  show (cfg0.win 2).cut (grid0.coords t) ((dats m 0 c).after 2 t) = _
  rw [after0_2]
  obtain ⟨e0, e1, e2, e3, e4, e5, e6⟩ := ce_blocks_aligned t
  funext y
  show ceBlk (F := Ideal) (iblk m c 0 t) (iblk m c 1 t) y
    = Cert.Arr.kceArr (V m c main_arg0) (V m c main_arg1) (((cfg0.win 2).blk t).view.emb y)
  refine ce_of_reads _ _ _ _ y _ (fun k => ?_) ?_
  · show V m c main_arg0 (((cfg0.win 0).blk t).view.emb (ix4 (0 : Fin 1) k (y 1 : Fin 512) (y 2 : Fin 256))) = V m c main_arg0 _
    refine congrArg _ ?_
    funext a; apply Fin.ext
    have hy0 : (y 0).val < 1 := (y 0).isLt
    match a with
    | ⟨0, _⟩ =>
      show win0_0.index t (0 : Fin 4) * 1 + 1 * 0 = win0_2.index t (0 : Fin 3) * 1 + 1 * (y 0).val
      omega
    | ⟨1, _⟩ =>
      show win0_0.index t (1 : Fin 4) * 10 + 1 * k.val = k.val
      omega
    | ⟨2, _⟩ =>
      show win0_0.index t (2 : Fin 4) * 512 + 1 * (y 1).val = win0_2.index t (1 : Fin 3) * 512 + 1 * (y 1).val
      omega
    | ⟨3, _⟩ =>
      show win0_0.index t (3 : Fin 4) * 256 + 1 * (y 2).val = win0_2.index t (2 : Fin 3) * 256 + 1 * (y 2).val
      omega
  · show V m c main_arg1 (((cfg0.win 1).blk t).view.emb y) = V m c main_arg1 _
    refine congrArg _ ?_
    funext a; apply Fin.ext
    match a with
    | ⟨0, _⟩ =>
      show win0_1.index t (0 : Fin 3) * 1 + 1 * (y 0).val = win0_2.index t (0 : Fin 3) * 1 + 1 * (y 0).val
      omega
    | ⟨1, _⟩ =>
      show win0_1.index t (1 : Fin 3) * 512 + 1 * (y 1).val = win0_2.index t (1 : Fin 3) * 512 + 1 * (y 1).val
      omega
    | ⟨2, _⟩ =>
      show win0_1.index t (2 : Fin 3) * 256 + 1 * (y 2).val = win0_2.index t (2 : Fin 3) * 256 + 1 * (y 2).val
      omega

/-- A pixel is in point `t`'s block of the first output array iff each coordinate is in the block's range on its axis. -/
theorem ce_mem_blk (t : Fin cfg0.N) (i : S8x512x512.Idx) :
    i ∈ ((cfg0.win 2).blk t).view.set
      ↔ ∀ a : Fin 3, win0_2.index t a * S1x512x256.size a ≤ (i a).val ∧ (i a).val < win0_2.index t a * S1x512x256.size a + S1x512x256.size a := by
  show i ∈ ((View.whole main_v0_0).slice (win0_2.rect t)).set ↔ _
  rw [View.set_slice_whole, Rect.mem_set_unit]
  exact Iff.rfl

/-- The blocks tile the map: the pixel (b, h, w) is in the block (b, 0, w / 256), which some point writes back. -/
theorem ce_cover (i : Cert.Arr.ST.Idx) :
    ∃ t : Fin cfg0.N, (cfg0.win 2).flush t = true ∧ i ∈ ((cfg0.win 2).blk t).view.set := by
  have hi0 : (i 0).val < 8 := (i 0).isLt
  have hi1 : (i 1).val < 512 := (i 1).isLt
  have hi2 : (i 2).val < 512 := (i 2).isLt
  obtain ⟨t, ht⟩ := ce_blocks_onto ⟨(i 0).val, hi0⟩ ⟨(i 2).val / 256, by omega⟩
  have q0 : win0_2.index t (0 : Fin 3) = (i 0).val := congrFun ht 0
  have q1 : win0_2.index t (1 : Fin 3) = 0 := congrFun ht 1
  have q2 : win0_2.index t (2 : Fin 3) = (i 2).val / 256 := congrFun ht 2
  refine ⟨t, flush0_2 t, ?_⟩
  rw [ce_mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 256 ≤ (i 2).val ∧ (i 2).val < win0_2.index t (2 : Fin 3) * 256 + 256; omega

/-- The first output array ends holding the masked cross-entropy map of the two argument arrays as the region finds them. -/
theorem ce_final (c : Dev nD) :
    ((dats (F := Ideal) m 0 c).arrAt 2 cfg0.N : Cert.Arr.ST.Idx → EReal) = Cert.Arr.kceArr (V m c main_arg0) (V m c main_arg1) :=
  (dats m 0 c).arrAt_eq_of_cover 2 (Cert.Arr.kceArr (V m c main_arg0) (V m c main_arg1)) (fun t _ => ce_flushed m c t) ce_cover

/-! ## The entropy map -/

/-- The index maps, decided over the sixteen points: at each point the scores' block sits at the second output block's
    batch row, row band and column band, on class band 0. -/
theorem ent_blocks_aligned : ∀ t : Fin cfg0.N,
    win0_0.index t (0 : Fin 4) = win0_3.index t (0 : Fin 3)
    ∧ win0_0.index t (1 : Fin 4) = 0
    ∧ win0_0.index t (2 : Fin 4) = win0_3.index t (1 : Fin 3)
    ∧ win0_0.index t (3 : Fin 4) = win0_3.index t (2 : Fin 3) :=
  (by decide +kernel : ∀ t : Fin grid0.N, _)

/-- Every block (b, 0, q) of the entropy map is some point's. -/
theorem ent_blocks_onto : ∀ (b : Fin 8) (q : Fin 2), ∃ t : Fin cfg0.N, win0_3.index t = ![b.val, 0, q.val] :=
  (by decide +kernel : ∀ (b : Fin 8) (q : Fin 2), ∃ t : Fin grid0.N, win0_3.index t = ![b.val, 0, q.val])

/-- What point `t` writes back to the second output array is its block of the entropy map of the scores array. -/
theorem ent_flushed (c : Dev nD) (t : Fin cfg0.N) :
    (dats (F := Ideal) m 0 c).flushed 3 t
      = ((cfg0.win 3).blk t).view.read (Elt Ideal) (Cert.Arr.kentArr (V m c main_arg0)) := by
  show (cfg0.win 3).cut (grid0.coords t) ((dats m 0 c).after 3 t) = _
  rw [after0_3]
  obtain ⟨e0, e1, e2, e3⟩ := ent_blocks_aligned t
  funext y
  show entBlk (F := Ideal) (iblk m c 0 t) y = Cert.Arr.kentArr (V m c main_arg0) (((cfg0.win 3).blk t).view.emb y)
  refine ent_of_reads _ _ y _ (fun k => ?_)
  show V m c main_arg0 (((cfg0.win 0).blk t).view.emb (ix4 (0 : Fin 1) k (y 1 : Fin 512) (y 2 : Fin 256))) = V m c main_arg0 _
  refine congrArg _ ?_
  funext a; apply Fin.ext
  have hy0 : (y 0).val < 1 := (y 0).isLt
  match a with
  | ⟨0, _⟩ =>
    show win0_0.index t (0 : Fin 4) * 1 + 1 * 0 = win0_3.index t (0 : Fin 3) * 1 + 1 * (y 0).val
    omega
  | ⟨1, _⟩ =>
    show win0_0.index t (1 : Fin 4) * 10 + 1 * k.val = k.val
    omega
  | ⟨2, _⟩ =>
    show win0_0.index t (2 : Fin 4) * 512 + 1 * (y 1).val = win0_3.index t (1 : Fin 3) * 512 + 1 * (y 1).val
    omega
  | ⟨3, _⟩ =>
    show win0_0.index t (3 : Fin 4) * 256 + 1 * (y 2).val = win0_3.index t (2 : Fin 3) * 256 + 1 * (y 2).val
    omega

/-- A pixel is in point `t`'s block of the second output array iff each coordinate is in the block's range on its axis. -/
theorem ent_mem_blk (t : Fin cfg0.N) (i : S8x512x512.Idx) :
    i ∈ ((cfg0.win 3).blk t).view.set
      ↔ ∀ a : Fin 3, win0_3.index t a * S1x512x256.size a ≤ (i a).val ∧ (i a).val < win0_3.index t a * S1x512x256.size a + S1x512x256.size a := by
  show i ∈ ((View.whole main_v0_1).slice (win0_3.rect t)).set ↔ _
  rw [View.set_slice_whole, Rect.mem_set_unit]
  exact Iff.rfl

/-- The blocks tile the map: the pixel (b, h, w) is in the block (b, 0, w / 256), which some point writes back. -/
theorem ent_cover (i : Cert.Arr.ST.Idx) :
    ∃ t : Fin cfg0.N, (cfg0.win 3).flush t = true ∧ i ∈ ((cfg0.win 3).blk t).view.set := by
  have hi0 : (i 0).val < 8 := (i 0).isLt
  have hi1 : (i 1).val < 512 := (i 1).isLt
  have hi2 : (i 2).val < 512 := (i 2).isLt
  obtain ⟨t, ht⟩ := ent_blocks_onto ⟨(i 0).val, hi0⟩ ⟨(i 2).val / 256, by omega⟩
  have q0 : win0_3.index t (0 : Fin 3) = (i 0).val := congrFun ht 0
  have q1 : win0_3.index t (1 : Fin 3) = 0 := congrFun ht 1
  have q2 : win0_3.index t (2 : Fin 3) = (i 2).val / 256 := congrFun ht 2
  refine ⟨t, flush0_3 t, ?_⟩
  rw [ent_mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 256 ≤ (i 2).val ∧ (i 2).val < win0_3.index t (2 : Fin 3) * 256 + 256; omega

/-- The second output array ends holding the entropy map of the scores array as the region finds it. -/
theorem ent_final (c : Dev nD) :
    ((dats (F := Ideal) m 0 c).arrAt 3 cfg0.N : Cert.Arr.ST.Idx → EReal) = Cert.Arr.kentArr (V m c main_arg0) :=
  (dats m 0 c).arrAt_eq_of_cover 3 (Cert.Arr.kentArr (V m c main_arg0)) (fun t _ => ent_flushed m c t) ent_cover

end Cert.KernelIdeal.Hand

end
-- ==== Proof.KIValue.lean ====
/-
  The idealized kernel program's result. After the region the two output arrays hold the masked cross-entropy map and the entropy map,
  each in the kernel's own order of operations, as functions of the two arguments; the targets' array still holds the targets;
  and the seventy-seven operations that follow compute the shared tail of those three. So the program ends with its result at the
  tail of the two maps and the targets, its arguments unchanged.
-/
import proofs.«405973_j68616397521419_1_alg».proof.Proof.KIFrame
import proofs.«405973_j68616397521419_1_alg».proof.Proof.KITail
import proofs.«405973_j68616397521419_1_alg».proof.Proof.KIArrays

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

set_option maxHeartbeats 4000000 in
/-- The result buffer after the later operations, from the region's exit contents. -/
theorem result_eq (c : Dev nD) :
    Pipeline.afterTail₀ cfgs (dats (F := Ideal) m) 0 (V0 m) tailOps c main_v49
      = Cert.Tail.tail (F := Ideal) (Cert.Arr.kceArr (m ((c.tc : Thread nD τ).loc main_arg0)) (m ((c.tc : Thread nD τ).loc main_arg1)))
          (Cert.Arr.kentArr (m ((c.tc : Thread nD τ).loc main_arg0))) (m ((c.tc : Thread nD τ).loc main_arg1)) := by
  unfold Pipeline.afterTail₀
  let Wv : Valuation τ sig (Elt Ideal) :=
    Pipeline.withArrays (cfgs 0).spec c (V0 m c) fun w => (dats (F := Ideal) m 0 c).arrAt w (cfgs 0).N
  have e2 : Wv (Proc.devRef .tc main_v0_0) = Cert.Arr.kceArr (m ((c.tc : Thread nD τ).loc main_arg0)) (m ((c.tc : Thread nD τ).loc main_arg1)) :=
    (Pipeline.withArrays_arr (cfgs 0).spec launch0.win.arr_inj c (V0 m c) (fun w => (dats (F := Ideal) m 0 c).arrAt w (cfgs 0).N) 2).trans (ce_final m c)
  have e3 : Wv (Proc.devRef .tc main_v0_1) = Cert.Arr.kentArr (m ((c.tc : Thread nD τ).loc main_arg0)) :=
    (Pipeline.withArrays_arr (cfgs 0).spec launch0.win.arr_inj c (V0 m c) (fun w => (dats (F := Ideal) m 0 c).arrAt w (cfgs 0).N) 3).trans (ent_final m c)
  have e1 : Wv (Proc.devRef .tc main_arg1) = m ((c.tc : Thread nD τ).loc main_arg1) :=
    (Pipeline.withArrays_arr (cfgs 0).spec launch0.win.arr_inj c (V0 m c) (fun w => (dats (F := Ideal) m 0 c).arrAt w (cfgs 0).N) 1).trans
      (((dats (F := Ideal) m 0 c).arrAt_in 1 rfl _).trans ((A_eq m c 1).trans (V_main_arg1 m c)))
  exact (tail_after (F := Ideal) Wv).trans (by rw [e2, e3, e1])

/-- Every weakly fair execution of the idealized kernel program terminates, its result at the shared tail of the two maps in the
    kernel's order and the targets, its arguments unchanged. -/
theorem value : θ_run defs (onTc (τ := τ) (main (F := Ideal))) ⟨m, fun _ => 0, ρ⟩ (fun r => ∀ c : Dev nD,
      r.2.mem ((c.tc : Thread nD τ).loc main_v49)
          = Cert.Tail.tail (F := Ideal) (Cert.Arr.kceArr (m ((c.tc : Thread nD τ).loc main_arg0)) (m ((c.tc : Thread nD τ).loc main_arg1)))
              (Cert.Arr.kentArr (m ((c.tc : Thread nD τ).loc main_arg0))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v49 (Pipeline.mem_restRefs_of main_v49 (by decide) (by decide))).trans (result_eq m c),
     ((h c).1 0).trans (((dats (F := Ideal) m 0 c).arrAt_in 0 rfl _).trans ((A_eq m c 0).trans (V_main_arg0 m c))),
     ((h c).1 1).trans (((dats (F := Ideal) m 0 c).arrAt_in 1 rfl _).trans ((A_eq m c 1).trans (V_main_arg1 m c)))⟩) (run_main (F := Ideal) m ρ)

end Cert.KernelIdeal.Hand

end
-- ==== Proof.RefValue.lean ====
/-
  The reference program's run. Its 140 host operations are taken in consecutive stretches, each run from arbitrary contents of
  the buffers: the first leaves the entropy map; the second, the glue both programs share, leaves the validity factor, the number of
  valid pixels, the clipped targets and the weight of each pixel; the third, in four parts (the log-softmax, the class index each pixel reads at,
  the read, the negation and mask), leaves the masked cross-entropy map; the last leaves the weighted sum over the number of valid pixels plus 1e-6.
  Joined, the result buffer ends at the shared tail of the reference's own cross-entropy and entropy maps (as the read-at-an-index
  module names them) and the targets, and no operation writes an argument.
-/
import proofs.«405973_j68616397521419_1_alg».proof.Proof.RefStretches
import proofs.«405973_j68616397521419_1_alg».proof.Proof.RefRead
import proofs.«405973_j68616397521419_1_alg».proof.Proof.TailSpec
import Idealize.ShloMosaic.Lib.StableHlo.Run
import Idealize.ShloMosaic.Lib.Pipeline.Frame

noncomputable section

namespace Cert.ReferenceIdeal.Hand

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- Contents carried to a typed reference's buffer type and back are the contents. -/
theorem ofBuf_toBuf {T : BufTy} (x : TRef sig T) (v : T.Contents (Elt F)) : x.ofBuf (x.toBuf v) = v := by
  obtain ⟨r, h, _, _⟩ := x; subst h; rfl

/-! ## The first stretch: the entropy map -/

set_option maxRecDepth 8192 in
set_option maxHeartbeats 4000000 in
theorem stretchE (W : Valuation τ sig (Elt F)) :
    StableHlo.after (opsE : List (HloOp τ sig (Elt F))) W (Proc.devRef .tc main_v16) = val_main_v16 (F := F) (W (Proc.devRef .tc main_arg0)) := by
  simp only [opsE]
  after_results_simp <;> rfl

set_option maxRecDepth 8192 in
set_option maxHeartbeats 4000000 in
theorem stretchE_arg0 (W : Valuation τ sig (Elt F)) :
    StableHlo.after (opsE : List (HloOp τ sig (Elt F))) W (Proc.devRef .tc main_arg0) = W (Proc.devRef .tc main_arg0) := by
  simp only [opsE]
  after_results_simp <;> rfl

set_option maxRecDepth 8192 in
set_option maxHeartbeats 4000000 in
theorem stretchE_arg1 (W : Valuation τ sig (Elt F)) :
    StableHlo.after (opsE : List (HloOp τ sig (Elt F))) W (Proc.devRef .tc main_arg1) = W (Proc.devRef .tc main_arg1) := by
  simp only [opsE]
  after_results_simp <;> rfl

/-! ## The second stretch: the glue both programs share -/

set_option maxRecDepth 8192 in
set_option maxHeartbeats 4000000 in
theorem stretchG_wmap (W : Valuation τ sig (Elt F)) :
    StableHlo.after (opsG : List (HloOp τ sig (Elt F))) W (Proc.devRef .tc main_v61) = Cert.Tail.wmap (F := F) (W (Proc.devRef .tc main_v16)) (W (Proc.devRef .tc main_arg1)) := by
  simp only [opsG]
  after_results_simp <;> (try simp only [ofBuf_toBuf]) <;> rfl

set_option maxRecDepth 8192 in
set_option maxHeartbeats 4000000 in
theorem stretchG_nvalid (W : Valuation τ sig (Elt F)) :
    StableHlo.after (opsG : List (HloOp τ sig (Elt F))) W (Proc.devRef .tc main_v20) = Cert.Tail.nvalid (F := F) (W (Proc.devRef .tc main_arg1)) := by
  simp only [opsG]
  after_results_simp <;> (try simp only [ofBuf_toBuf]) <;> rfl

set_option maxRecDepth 8192 in
set_option maxHeartbeats 4000000 in
theorem stretchG_valid (W : Valuation τ sig (Elt F)) :
    StableHlo.after (opsG : List (HloOp τ sig (Elt F))) W (Proc.devRef .tc main_v19) = val_main_v19 (F := F) (W (Proc.devRef .tc main_arg1)) := by
  simp only [opsG]
  after_results_simp <;> (try simp only [ofBuf_toBuf]) <;> rfl

set_option maxRecDepth 8192 in
set_option maxHeartbeats 4000000 in
theorem stretchG_tclip (W : Valuation τ sig (Elt F)) :
    StableHlo.after (opsG : List (HloOp τ sig (Elt F))) W (Proc.devRef .tc main_v21) = val_main_v21 (F := F) (W (Proc.devRef .tc main_arg1)) := by
  simp only [opsG]
  after_results_simp <;> (try simp only [ofBuf_toBuf]) <;> rfl

set_option maxRecDepth 8192 in
set_option maxHeartbeats 4000000 in
theorem stretchG_arg0 (W : Valuation τ sig (Elt F)) :
    StableHlo.after (opsG : List (HloOp τ sig (Elt F))) W (Proc.devRef .tc main_arg0) = W (Proc.devRef .tc main_arg0) := by
  simp only [opsG]
  after_results_simp <;> (try simp only [ofBuf_toBuf]) <;> rfl

set_option maxRecDepth 8192 in
set_option maxHeartbeats 4000000 in
theorem stretchG_arg1 (W : Valuation τ sig (Elt F)) :
    StableHlo.after (opsG : List (HloOp τ sig (Elt F))) W (Proc.devRef .tc main_arg1) = W (Proc.devRef .tc main_arg1) := by
  simp only [opsG]
  after_results_simp <;> (try simp only [ofBuf_toBuf]) <;> rfl

/-! ## The third stretch, in four parts: the masked cross-entropy map

Where a called function reads a buffer an operation of the program wrote, or the program reads one a called function wrote, the
carrying of contents to the typed reference's type is the identity by computation of the buffer's type. -/

theorem ofBuf_arg0 (v : main_arg0.ty.Contents (Elt F)) : (TRef.of (T := ⟨S8x10x512x512, .f32⟩) main_arg0).ofBuf v = v := rfl
theorem ofBuf_v63 (v : main_v63.ty.Contents (Elt F)) : (TRef.of (T := ⟨S8x1x512x512, .i32⟩) main_v63).ofBuf v = v := rfl
theorem ofBuf_v62 (v : main_v62.ty.Contents (Elt F)) : (TRef.of (T := ⟨S8x10x512x512, .f32⟩) main_v62).ofBuf v = v := rfl
theorem ofBuf_call4_v5 (v : main_call4_v5.ty.Contents (Elt F)) : (TRef.of (T := ⟨S8x1x512x512x1, .i32⟩) main_call4_v5).ofBuf v = v := rfl
theorem toBuf_v62 (v : (⟨S8x10x512x512, .f32⟩ : BufTy).Contents (Elt F)) : (TRef.of (T := ⟨S8x10x512x512, .f32⟩) main_v62).toBuf v = v := rfl
theorem toBuf_v64 (v : (⟨S8x1x512x512, .f32⟩ : BufTy).Contents (Elt F)) : (TRef.of (T := ⟨S8x1x512x512, .f32⟩) main_v64).toBuf v = v := rfl

set_option maxRecDepth 8192 in
set_option maxHeartbeats 4000000 in
/-- The log-softmax of the scores `x`. -/
theorem stretchCa (W : Valuation τ sig (Elt F)) (x : (⟨S8x10x512x512, .f32⟩ : BufTy).Contents (Elt F)) (h0 : W (Proc.devRef .tc main_arg0) = x) :
    StableHlo.after (opsCa : List (HloOp τ sig (Elt F))) W (Proc.devRef .tc main_v62) = val_main_v62 (F := F) x := by
  simp only [opsCa]
  after_results_simp <;> simp only [ofBuf_toBuf, ofBuf_arg0, toBuf_v62, h0] <;> rfl

set_option maxRecDepth 8192 in
set_option maxHeartbeats 4000000 in
theorem stretchCa_v21 (W : Valuation τ sig (Elt F)) :
    StableHlo.after (opsCa : List (HloOp τ sig (Elt F))) W (Proc.devRef .tc main_v21) = W (Proc.devRef .tc main_v21) := by
  simp only [opsCa]
  after_results_simp <;> rfl

set_option maxRecDepth 8192 in
set_option maxHeartbeats 4000000 in
theorem stretchCa_v19 (W : Valuation τ sig (Elt F)) :
    StableHlo.after (opsCa : List (HloOp τ sig (Elt F))) W (Proc.devRef .tc main_v19) = W (Proc.devRef .tc main_v19) := by
  simp only [opsCa]
  after_results_simp <;> rfl

set_option maxRecDepth 8192 in
set_option maxHeartbeats 4000000 in
theorem stretchCa_v61 (W : Valuation τ sig (Elt F)) :
    StableHlo.after (opsCa : List (HloOp τ sig (Elt F))) W (Proc.devRef .tc main_v61) = W (Proc.devRef .tc main_v61) := by
  simp only [opsCa]
  after_results_simp <;> rfl

set_option maxRecDepth 8192 in
set_option maxHeartbeats 4000000 in
theorem stretchCa_v20 (W : Valuation τ sig (Elt F)) :
    StableHlo.after (opsCa : List (HloOp τ sig (Elt F))) W (Proc.devRef .tc main_v20) = W (Proc.devRef .tc main_v20) := by
  simp only [opsCa]
  after_results_simp <;> rfl

set_option maxRecDepth 8192 in
set_option maxHeartbeats 4000000 in
theorem stretchCa_arg0 (W : Valuation τ sig (Elt F)) :
    StableHlo.after (opsCa : List (HloOp τ sig (Elt F))) W (Proc.devRef .tc main_arg0) = W (Proc.devRef .tc main_arg0) := by
  simp only [opsCa]
  after_results_simp <;> rfl

set_option maxRecDepth 8192 in
set_option maxHeartbeats 4000000 in
theorem stretchCa_arg1 (W : Valuation τ sig (Elt F)) :
    StableHlo.after (opsCa : List (HloOp τ sig (Elt F))) W (Proc.devRef .tc main_arg1) = W (Proc.devRef .tc main_arg1) := by
  simp only [opsCa]
  after_results_simp <;> rfl

set_option maxRecDepth 8192 in
set_option maxHeartbeats 4000000 in
/-- The class index each pixel reads at, from the clipped targets of `t`. -/
theorem stretchCb (W : Valuation τ sig (Elt F)) (t : (⟨S8x512x512, .i32⟩ : BufTy).Contents (Elt F)) (h21 : W (Proc.devRef .tc main_v21) = val_main_v21 (F := F) t) :
    StableHlo.after (opsCb : List (HloOp τ sig (Elt F))) W (Proc.devRef .tc main_call4_v5) = val_main_call4_v5 (F := F) t := by
  simp only [opsCb]
  after_results_simp <;> simp only [ofBuf_toBuf, ofBuf_v63, h21] <;> rfl

set_option maxRecDepth 8192 in
set_option maxHeartbeats 4000000 in
theorem stretchCb_v62 (W : Valuation τ sig (Elt F)) :
    StableHlo.after (opsCb : List (HloOp τ sig (Elt F))) W (Proc.devRef .tc main_v62) = W (Proc.devRef .tc main_v62) := by
  simp only [opsCb]
  after_results_simp <;> rfl

set_option maxRecDepth 8192 in
set_option maxHeartbeats 4000000 in
theorem stretchCb_v19 (W : Valuation τ sig (Elt F)) :
    StableHlo.after (opsCb : List (HloOp τ sig (Elt F))) W (Proc.devRef .tc main_v19) = W (Proc.devRef .tc main_v19) := by
  simp only [opsCb]
  after_results_simp <;> rfl

set_option maxRecDepth 8192 in
set_option maxHeartbeats 4000000 in
theorem stretchCb_v61 (W : Valuation τ sig (Elt F)) :
    StableHlo.after (opsCb : List (HloOp τ sig (Elt F))) W (Proc.devRef .tc main_v61) = W (Proc.devRef .tc main_v61) := by
  simp only [opsCb]
  after_results_simp <;> rfl

set_option maxRecDepth 8192 in
set_option maxHeartbeats 4000000 in
theorem stretchCb_v20 (W : Valuation τ sig (Elt F)) :
    StableHlo.after (opsCb : List (HloOp τ sig (Elt F))) W (Proc.devRef .tc main_v20) = W (Proc.devRef .tc main_v20) := by
  simp only [opsCb]
  after_results_simp <;> rfl

set_option maxRecDepth 8192 in
set_option maxHeartbeats 4000000 in
theorem stretchCb_arg0 (W : Valuation τ sig (Elt F)) :
    StableHlo.after (opsCb : List (HloOp τ sig (Elt F))) W (Proc.devRef .tc main_arg0) = W (Proc.devRef .tc main_arg0) := by
  simp only [opsCb]
  after_results_simp <;> rfl

set_option maxRecDepth 8192 in
set_option maxHeartbeats 4000000 in
theorem stretchCb_arg1 (W : Valuation τ sig (Elt F)) :
    StableHlo.after (opsCb : List (HloOp τ sig (Elt F))) W (Proc.devRef .tc main_arg1) = W (Proc.devRef .tc main_arg1) := by
  simp only [opsCb]
  after_results_simp <;> rfl

set_option maxRecDepth 8192 in
set_option maxHeartbeats 4000000 in
/-- The log-probability read at that class. -/
theorem stretchCc (W : Valuation τ sig (Elt F)) (x : (⟨S8x10x512x512, .f32⟩ : BufTy).Contents (Elt F)) (t : (⟨S8x512x512, .i32⟩ : BufTy).Contents (Elt F))
    (h62 : W (Proc.devRef .tc main_v62) = val_main_v62 (F := F) x) (h5 : W (Proc.devRef .tc main_call4_v5) = val_main_call4_v5 (F := F) t) :
    StableHlo.after (opsCc : List (HloOp τ sig (Elt F))) W (Proc.devRef .tc main_v64) = val_main_v64 (F := F) x t := by
  simp only [opsCc]
  after_results_simp <;> simp only [ofBuf_toBuf, ofBuf_v62, ofBuf_call4_v5, toBuf_v64, h62, h5] <;> rfl

set_option maxRecDepth 8192 in
set_option maxHeartbeats 4000000 in
theorem stretchCc_v19 (W : Valuation τ sig (Elt F)) :
    StableHlo.after (opsCc : List (HloOp τ sig (Elt F))) W (Proc.devRef .tc main_v19) = W (Proc.devRef .tc main_v19) := by
  simp only [opsCc]
  after_results_simp <;> rfl

set_option maxRecDepth 8192 in
set_option maxHeartbeats 4000000 in
theorem stretchCc_v61 (W : Valuation τ sig (Elt F)) :
    StableHlo.after (opsCc : List (HloOp τ sig (Elt F))) W (Proc.devRef .tc main_v61) = W (Proc.devRef .tc main_v61) := by
  simp only [opsCc]
  after_results_simp <;> rfl

set_option maxRecDepth 8192 in
set_option maxHeartbeats 4000000 in
theorem stretchCc_v20 (W : Valuation τ sig (Elt F)) :
    StableHlo.after (opsCc : List (HloOp τ sig (Elt F))) W (Proc.devRef .tc main_v20) = W (Proc.devRef .tc main_v20) := by
  simp only [opsCc]
  after_results_simp <;> rfl

set_option maxRecDepth 8192 in
set_option maxHeartbeats 4000000 in
theorem stretchCc_arg0 (W : Valuation τ sig (Elt F)) :
    StableHlo.after (opsCc : List (HloOp τ sig (Elt F))) W (Proc.devRef .tc main_arg0) = W (Proc.devRef .tc main_arg0) := by
  simp only [opsCc]
  after_results_simp <;> rfl

set_option maxRecDepth 8192 in
set_option maxHeartbeats 4000000 in
theorem stretchCc_arg1 (W : Valuation τ sig (Elt F)) :
    StableHlo.after (opsCc : List (HloOp τ sig (Elt F))) W (Proc.devRef .tc main_arg1) = W (Proc.devRef .tc main_arg1) := by
  simp only [opsCc]
  after_results_simp <;> rfl

set_option maxRecDepth 8192 in
set_option maxHeartbeats 4000000 in
/-- Its negation times the validity factor. -/
theorem stretchCd (W : Valuation τ sig (Elt F)) (x : (⟨S8x10x512x512, .f32⟩ : BufTy).Contents (Elt F)) (t : (⟨S8x512x512, .i32⟩ : BufTy).Contents (Elt F))
    (h64 : W (Proc.devRef .tc main_v64) = val_main_v64 (F := F) x t) (h19 : W (Proc.devRef .tc main_v19) = val_main_v19 (F := F) t) :
    StableHlo.after (opsCd : List (HloOp τ sig (Elt F))) W (Proc.devRef .tc main_v67) = val_main_v67 (F := F) x t := by
  simp only [opsCd]
  after_results_simp <;> simp only [h64, h19] <;> rfl

set_option maxRecDepth 8192 in
set_option maxHeartbeats 4000000 in
theorem stretchCd_v61 (W : Valuation τ sig (Elt F)) :
    StableHlo.after (opsCd : List (HloOp τ sig (Elt F))) W (Proc.devRef .tc main_v61) = W (Proc.devRef .tc main_v61) := by
  simp only [opsCd]
  after_results_simp <;> rfl

set_option maxRecDepth 8192 in
set_option maxHeartbeats 4000000 in
theorem stretchCd_v20 (W : Valuation τ sig (Elt F)) :
    StableHlo.after (opsCd : List (HloOp τ sig (Elt F))) W (Proc.devRef .tc main_v20) = W (Proc.devRef .tc main_v20) := by
  simp only [opsCd]
  after_results_simp <;> rfl

set_option maxRecDepth 8192 in
set_option maxHeartbeats 4000000 in
theorem stretchCd_arg0 (W : Valuation τ sig (Elt F)) :
    StableHlo.after (opsCd : List (HloOp τ sig (Elt F))) W (Proc.devRef .tc main_arg0) = W (Proc.devRef .tc main_arg0) := by
  simp only [opsCd]
  after_results_simp <;> rfl

set_option maxRecDepth 8192 in
set_option maxHeartbeats 4000000 in
theorem stretchCd_arg1 (W : Valuation τ sig (Elt F)) :
    StableHlo.after (opsCd : List (HloOp τ sig (Elt F))) W (Proc.devRef .tc main_arg1) = W (Proc.devRef .tc main_arg1) := by
  simp only [opsCd]
  after_results_simp <;> rfl

/-! ## The fourth stretch: the weighted sum and the quotient -/

set_option maxRecDepth 8192 in
set_option maxHeartbeats 4000000 in
theorem stretchF (W : Valuation τ sig (Elt F)) :
    StableHlo.after (opsF : List (HloOp τ sig (Elt F))) W (Proc.devRef .tc main_v71)
      = Host.divf (Host.reduceAdd (mulf (W (Proc.devRef .tc main_v67)) (W (Proc.devRef .tc main_v61))) (constant S_ .f32 0x00000000#32) reducesTo_S8x512x512_S_d0_1_2 h_S_)
          (addf (W (Proc.devRef .tc main_v20)) (constant S_ .f32 0x358637BD#32)) := by
  simp only [opsF]
  after_results_simp <;> rfl

set_option maxRecDepth 8192 in
set_option maxHeartbeats 4000000 in
theorem stretchF_arg0 (W : Valuation τ sig (Elt F)) :
    StableHlo.after (opsF : List (HloOp τ sig (Elt F))) W (Proc.devRef .tc main_arg0) = W (Proc.devRef .tc main_arg0) := by
  simp only [opsF]
  after_results_simp <;> rfl

set_option maxRecDepth 8192 in
set_option maxHeartbeats 4000000 in
theorem stretchF_arg1 (W : Valuation τ sig (Elt F)) :
    StableHlo.after (opsF : List (HloOp τ sig (Elt F))) W (Proc.devRef .tc main_arg1) = W (Proc.devRef .tc main_arg1) := by
  simp only [opsF]
  after_results_simp <;> rfl

/-! ## The seven stretches joined -/

/-- From any contents `L`, the result buffer ends at the shared tail of the reference's two maps and the targets. -/
theorem value (L : Valuation τ sig (Elt F)) :
    StableHlo.after (ops : List (HloOp τ sig (Elt F))) L (Proc.devRef .tc main_v71)
      = Cert.Tail.tail (F := F) (val_main_v67 (F := F) (L (Proc.devRef .tc main_arg0)) (L (Proc.devRef .tc main_arg1)))
          (val_main_v16 (F := F) (L (Proc.devRef .tc main_arg0))) (L (Proc.devRef .tc main_arg1)) := by
  rw [ops_eq, StableHlo.after_append, StableHlo.after_append, StableHlo.after_append, StableHlo.after_append, StableHlo.after_append,
    StableHlo.after_append]
  -- the entropy map
  have e0 := stretchE_arg0 L
  have e1 := stretchE_arg1 L
  have e16 := stretchE L
  generalize StableHlo.after (opsE : List (HloOp τ sig (Elt F))) L = W1 at e0 e1 e16 ⊢
  -- the glue
  have g0 := (stretchG_arg0 W1).trans e0
  have g19 : StableHlo.after (opsG : List (HloOp τ sig (Elt F))) W1 (Proc.devRef .tc main_v19) = val_main_v19 (F := F) (L (Proc.devRef .tc main_arg1)) := by rw [stretchG_valid, e1]
  have g21 : StableHlo.after (opsG : List (HloOp τ sig (Elt F))) W1 (Proc.devRef .tc main_v21) = val_main_v21 (F := F) (L (Proc.devRef .tc main_arg1)) := by rw [stretchG_tclip, e1]
  have g61 : StableHlo.after (opsG : List (HloOp τ sig (Elt F))) W1 (Proc.devRef .tc main_v61) = Cert.Tail.wmap (F := F) (val_main_v16 (F := F) (L (Proc.devRef .tc main_arg0))) (L (Proc.devRef .tc main_arg1)) := by
    rw [stretchG_wmap, e16, e1]
  have g20 : StableHlo.after (opsG : List (HloOp τ sig (Elt F))) W1 (Proc.devRef .tc main_v20) = Cert.Tail.nvalid (F := F) (L (Proc.devRef .tc main_arg1)) := by rw [stretchG_nvalid, e1]
  generalize StableHlo.after (opsG : List (HloOp τ sig (Elt F))) W1 = W2 at g0 g19 g21 g61 g20 ⊢
  -- the log-softmax
  have a62 := stretchCa W2 _ g0
  have a21 := (stretchCa_v21 W2).trans g21
  have a19 := (stretchCa_v19 W2).trans g19
  have a61 := (stretchCa_v61 W2).trans g61
  have a20 := (stretchCa_v20 W2).trans g20
  generalize StableHlo.after (opsCa : List (HloOp τ sig (Elt F))) W2 = W3 at a62 a21 a19 a61 a20 ⊢
  -- the class index
  have b5 := stretchCb W3 _ a21
  have b62 := (stretchCb_v62 W3).trans a62
  have b19 := (stretchCb_v19 W3).trans a19
  have b61 := (stretchCb_v61 W3).trans a61
  have b20 := (stretchCb_v20 W3).trans a20
  generalize StableHlo.after (opsCb : List (HloOp τ sig (Elt F))) W3 = W4 at b5 b62 b19 b61 b20 ⊢
  -- the read
  have c64 := stretchCc W4 _ _ b62 b5
  have c19 := (stretchCc_v19 W4).trans b19
  have c61 := (stretchCc_v61 W4).trans b61
  have c20 := (stretchCc_v20 W4).trans b20
  generalize StableHlo.after (opsCc : List (HloOp τ sig (Elt F))) W4 = W5 at c64 c19 c61 c20 ⊢
  -- the masked cross entropy
  have d67 := stretchCd W5 _ _ c64 c19
  have d61 := (stretchCd_v61 W5).trans c61
  have d20 := (stretchCd_v20 W5).trans c20
  generalize StableHlo.after (opsCd : List (HloOp τ sig (Elt F))) W5 = W6 at d67 d61 d20 ⊢
  rw [stretchF, d67, d61, d20]
  rfl

/-- No operation writes the scores. -/
theorem kept_arg0 (L : Valuation τ sig (Elt F)) :
    StableHlo.after (ops : List (HloOp τ sig (Elt F))) L (Proc.devRef .tc main_arg0) = L (Proc.devRef .tc main_arg0) := by
  rw [ops_eq, StableHlo.after_append, StableHlo.after_append, StableHlo.after_append, StableHlo.after_append, StableHlo.after_append,
    StableHlo.after_append, stretchF_arg0, stretchCd_arg0, stretchCc_arg0, stretchCb_arg0, stretchCa_arg0, stretchG_arg0, stretchE_arg0]
/-- Nor the targets. -/
theorem kept_arg1 (L : Valuation τ sig (Elt F)) :
    StableHlo.after (ops : List (HloOp τ sig (Elt F))) L (Proc.devRef .tc main_arg1) = L (Proc.devRef .tc main_arg1) := by
  rw [ops_eq, StableHlo.after_append, StableHlo.after_append, StableHlo.after_append, StableHlo.after_append, StableHlo.after_append,
    StableHlo.after_append, stretchF_arg1, stretchCd_arg1, stretchCc_arg1, stretchCb_arg1, stretchCa_arg1, stretchG_arg1, stretchE_arg1]

/-! ## The run -/

/-- Every weakly fair execution of the reference terminates, its result at the shared tail of its two maps and the targets as
    launched, its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v71)
          = Cert.Tail.tail (F := F) (val_main_v67 (F := F) (m ((c.tc : Thread nD τ).loc main_arg0)) (m ((c.tc : Thread nD τ).loc main_arg1)))
              (val_main_v16 (F := F) (m ((c.tc : Thread nD τ).loc main_arg0))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v71).trans (value _), (h c main_arg0).trans (kept_arg0 _), (h c main_arg1).trans (kept_arg1 _)⟩)
    (run_seq scopedRefs_eq scopedSems_eq defs main (fun _ => ops) main_eq (fun _ => ops_sub) m ρ)

end Cert.ReferenceIdeal.Hand

end
-- ==== Proof.PixelMath.lean ====
/-
  One pixel's mathematics on the extended reals. For ten real class scores and any target word, the quantities
  folded from the left (the running maximum, the sum of shifted exponentials started at zero, the softmax
  probabilities, the entropy as zero less each term in turn, the cross entropy as zero less each 0/1 selector times
  a log-probability in turn) equal the canonical ones (one maximum, one sum, minus the sum of `p · log (p + ε)`,
  minus the log-probability read at the clipped class). Also: the starting zero is `0`, the shift `ε` is a positive
  real, and the clipped target lies in `0 … 9`.
-/
import proofs.«405973_j68616397521419_1_alg».proof.Proof.PixelSpec
import Mathlib.Analysis.SpecialFunctions.Log.Basic
import Mathlib.Algebra.BigOperators.Fin

noncomputable section

namespace Cert.Pix

open Idealize.ShloMosaic

/-! ## The constants and the clip -/

/-- The pattern of `+0.0` denotes `0`. -/
theorem zero_eq : Cert.Pix.zero = 0 := by
  simp [zero, Ideal.ofBits, Ideal.ieee]

/-- The pattern `0x322BCC77` (sign 0, exponent field 100, fraction 2870391) is the normal number
    `(2^23 + 2870391) · 2^(100 − 127 − 23) = 11258999 · 2^(−50)`, a positive real. -/
theorem eps_pos : ∃ e : ℝ, 0 < e ∧ Cert.Pix.eps = ((e : ℝ) : EReal) := by
  refine ⟨(11258999 : ℝ) * (2 : ℝ) ^ (-50 : ℤ), by positivity, ?_⟩
  simp [eps, Ideal.ofBits, Ideal.ieee, -EReal.coe_mul]

/-- The signed clip: `0` below zero, `9` above nine, else the word itself, which then lies in `0 … 9`. -/
theorem tclip_range (t : BitVec 32) : (tclip t).toNat < 10 := by
  unfold tclip IntOp.minsi IntOp.maxsi
  split_ifs with h1 h2 h2
  all_goals simp_all [BitVec.slt, BitVec.toInt_eq_toNat_cond]
  all_goals omega

/-! ## Left folds against the canonical forms, at any extended reals -/

/-- A sum over the ten classes, written out from the left. -/
theorem sum_fin10 {α : Type*} [AddCommMonoid α] (f : Fin 10 → α) :
    ∑ c, f c = f 0 + f 1 + f 2 + f 3 + f 4 + f 5 + f 6 + f 7 + f 8 + f 9 := by
  simp [Fin.sum_univ_succ, add_assoc]

/-- The running maximum is the supremum of the ten scores: each score is below the nested maximum, and the nested
    maximum of elements below the supremum is below it. -/
theorem kmax_eq_cmax (v : Fin 10 → EReal) : kmax v = cmax v := by
  unfold kmax cmax
  apply le_antisymm
  · simp only [max_le_iff]
    refine ⟨⟨⟨⟨⟨⟨⟨⟨⟨?_, ?_⟩, ?_⟩, ?_⟩, ?_⟩, ?_⟩, ?_⟩, ?_⟩, ?_⟩, ?_⟩
    all_goals exact Finset.le_sup' v (Finset.mem_univ _)
  · refine Finset.sup'_le _ _ (fun c _ => ?_)
    fin_cases c <;> simp [le_max_iff]

/-- The sum of exponentials started at zero and folded from the left is the sum over the classes. -/
theorem ksum_eq_csum (v : Fin 10 → EReal) : ksum v = csum v := by
  unfold ksum csum kex ksh
  rw [kmax_eq_cmax, zero_eq, sum_fin10, zero_add]

/-- Hence the same probabilities. -/
theorem kp_eq_cp (v : Fin 10 → EReal) (c : Fin 10) : kp v c = cp v c := by
  unfold kp cp kex ksh
  rw [kmax_eq_cmax, ksum_eq_csum]

/-- And the same log-probabilities. -/
theorem klp_eq_clp (v : Fin 10 → EReal) (c : Fin 10) : klp v c = clp v c := by
  unfold klp clp ksh
  rw [kmax_eq_cmax, ksum_eq_csum]

/-! ## Real scores: every quantity is a real -/

/-- The embedding of the reals is monotone, so it carries `max` to `max`. -/
theorem coe_max' (a b : ℝ) : ((max a b : ℝ) : EReal) = max (a : EReal) (b : EReal) :=
  EReal.coe_strictMono.monotone.map_max

/-- The real maximum `M` of the ten scores, from the left. -/
def rmax (x : Fin 10 → ℝ) : ℝ :=
  max (max (max (max (max (max (max (max (max (x 0) (x 1)) (x 2)) (x 3)) (x 4)) (x 5)) (x 6)) (x 7)) (x 8)) (x 9)

theorem kmax_coe (x : Fin 10 → ℝ) : kmax (fun c => ((x c : ℝ) : EReal)) = ((rmax x : ℝ) : EReal) := by
  unfold kmax rmax
  simp only [coe_max']

/-- The shifted exponential `exp (x c − M)`, a positive real. -/
def rex (x : Fin 10 → ℝ) (c : Fin 10) : ℝ := Real.exp (x c - rmax x)

theorem kex_coe (x : Fin 10 → ℝ) (c : Fin 10) :
    kex (fun c => ((x c : ℝ) : EReal)) c = ((rex x c : ℝ) : EReal) := by
  unfold kex ksh rex
  rw [kmax_coe, ← EReal.coe_sub, Ideal.exp_coe]

/-- Their sum `S`. -/
def rsum (x : Fin 10 → ℝ) : ℝ :=
  rex x 0 + rex x 1 + rex x 2 + rex x 3 + rex x 4 + rex x 5 + rex x 6 + rex x 7 + rex x 8 + rex x 9

theorem ksum_coe (x : Fin 10 → ℝ) : ksum (fun c => ((x c : ℝ) : EReal)) = ((rsum x : ℝ) : EReal) := by
  unfold ksum rsum
  rw [zero_eq, zero_add]
  simp only [kex_coe, EReal.coe_add]

/-- A sum of exponentials is positive. -/
theorem rsum_pos (x : Fin 10 → ℝ) : 0 < rsum x := by
  unfold rsum rex
  positivity

/-- The probability `p c = exp (x c − M) · (1 / S)`. -/
def rp (x : Fin 10 → ℝ) (c : Fin 10) : ℝ := rex x c * (1 / rsum x)

theorem kp_coe (x : Fin 10 → ℝ) (c : Fin 10) :
    kp (fun c => ((x c : ℝ) : EReal)) c = ((rp x c : ℝ) : EReal) := by
  unfold kp rp
  rw [ksum_coe, kex_coe, Ideal.div_coe (rsum_pos x).ne', ← EReal.coe_mul]

theorem rp_pos (x : Fin 10 → ℝ) (c : Fin 10) : 0 < rp x c := by
  have := rsum_pos x
  unfold rp rex
  positivity

/-- Each entropy term is real: `p c + ε` is a positive real, so its logarithm is the real logarithm. -/
theorem kterm_coe (x : Fin 10 → ℝ) :
    ∃ T : Fin 10 → ℝ, ∀ c, kterm (fun c => ((x c : ℝ) : EReal)) c = ((T c : ℝ) : EReal) := by
  obtain ⟨e, he, hE⟩ := eps_pos
  refine ⟨fun c => rp x c * Real.log (rp x c + e), fun c => ?_⟩
  unfold kterm
  rw [kp_coe, hE, ← EReal.coe_add, Ideal.log_coe, if_neg (not_le.2 (add_pos (rp_pos x c) he)), ← EReal.coe_mul]

/-- The entropy: on reals `((0 − a₀) − a₁) … − a₉ = −(a₀ + … + a₉)`. -/
theorem kent_eq (x : Fin 10 → ℝ) :
    kent (fun c => ((x c : ℝ) : EReal)) = cent (fun c => ((x c : ℝ) : EReal)) := by
  obtain ⟨T, hT⟩ := kterm_coe x
  have hc : ∀ c, cp (fun c => ((x c : ℝ) : EReal)) c * Ideal.log (cp (fun c => ((x c : ℝ) : EReal)) c + eps)
      = ((T c : ℝ) : EReal) := fun c => by
    rw [← kp_eq_cp]; exact hT c
  unfold kent cent
  simp only [hc, hT, zero_eq, sum_fin10]
  simp only [zero_sub, ← EReal.coe_neg, ← EReal.coe_sub, ← EReal.coe_add]
  congr 1
  ring

/-- Each log-probability is real: `S` is positive, so `log S` is the real logarithm. -/
theorem klp_coe (x : Fin 10 → ℝ) :
    ∃ L : Fin 10 → ℝ, ∀ c, klp (fun c => ((x c : ℝ) : EReal)) c = ((L c : ℝ) : EReal) := by
  refine ⟨fun c => (x c - rmax x) - Real.log (rsum x), fun c => ?_⟩
  unfold klp ksh
  rw [kmax_coe, ksum_coe, Ideal.log_coe, if_neg (not_le.2 (rsum_pos x)), ← EReal.coe_sub, ← EReal.coe_sub]

/-! ## The target word -/

/-- A one-bit word widened without sign and read signed is the bit read unsigned: `0` or `1` either way. -/
theorem validS_eq_validU (t : BitVec 32) : validS t = validU t := by
  unfold validS validU
  simp only [IntOp.cmpi]
  cases h : (t != 10#32) <;> simp

/-- The selector is `1` at the clipped target's own class word and `0` at every other. -/
theorem sel_eq (t c : BitVec 32) : sel t c = if tclip t = c then 1 else 0 := by
  unfold sel
  simp only [IntOp.cmpi]
  by_cases h : tclip t = c
  · simp [h]
  · have hb : (tclip t == c) = false := by simpa using h
    simp [h, hb]

/-- The clipped target is one of the ten class words, and `tcls` is that class. -/
theorem tclip_cases (t : BitVec 32) : ∃ k : Fin 10, tclip t = BitVec.ofNat 32 k.val ∧ tcls t = k := by
  have h := tclip_range t
  refine ⟨⟨(tclip t).toNat, h⟩, ?_, ?_⟩
  · simp
  · unfold tcls
    rw [dif_pos h]

/-- The cross entropy: of the ten selectors exactly the clipped class's is `1`, so the accumulated difference is
    minus that class's log-probability; the two validity factors are the same `0` or `1`. -/
theorem kce_eq (x : Fin 10 → ℝ) (t : BitVec 32) :
    kce (fun c => ((x c : ℝ) : EReal)) t = cce (fun c => ((x c : ℝ) : EReal)) t := by
  obtain ⟨L, hL⟩ := klp_coe x
  obtain ⟨k, hk, hc⟩ := tclip_cases t
  unfold kce cce
  rw [validS_eq_validU, hc]
  congr 1
  simp only [← klp_eq_clp, hL, zero_eq, sel_eq, hk]
  fin_cases k <;> simp

end Cert.Pix

end
-- ==== Proof.RefMax.lean ====
/-
  The reference's maximum over the class axis. A maximum-reduce of an 8 × 10 × 512 × 512 array of extended reals over
  its class axis, started from −∞, is at pixel (b, h, w) the largest of the ten values y (b, k, h, w): the fold of `max`
  from −∞ over the ten classes is below every upper bound of the ten values and above each of them, which is the
  universal property of their supremum.
-/
import proofs.«405973_j68616397521419_1_alg».proof.Proof.RefRead
import proofs.«405973_j68616397521419_1_alg».proof.Proof.ArrSpec
import Idealize.ShloMosaic.Lib.ValueIdx
import Idealize.ShloMosaic.PureOps.Ideal.Laws
import Idealize.ShloMosaic.PureOps.Reduce
import Mathlib.Data.Finset.Fold
import Mathlib.Order.Interval.Finset.Fin

noncomputable section

namespace Cert.ReferenceIdeal.Hand

open Cert.ReferenceIdeal Cert.ReferenceIdeal.Gen Cert.ReferenceIdeal.ReadP Idealize.ShloMosaic Idealize.ShloMosaic.ValueIdx

/-- The fold of `max` from −∞ over the ten classes is the supremum of the ten values. -/
theorem fold_max_bot_eq_cmax (v : Fin 10 → EReal) :
    (Finset.univ : Finset (Fin 10)).fold max (⊥ : EReal) v = Cert.Pix.cmax v := by
  unfold Cert.Pix.cmax
  apply le_antisymm
  · rw [Finset.fold_max_le]
    exact ⟨bot_le, fun c hc => Finset.le_sup' v hc⟩
  · refine Finset.sup'_le _ _ (fun c hc => ?_)
    rw [Finset.le_fold_max]
    exact Or.inr ⟨c, hc, le_rfl⟩

/-- The class axis's coordinate `k` put back into pixel (b, h, w) is (b, k, h, w). -/
theorem lift_classes (hr : S8x10x512x512.Reduces [1] S8x512x512) (b : Fin 8) (h w : Fin 512)
    (k : Fin (S8x10x512x512.size 1)) :
    hr.lift (ix3 b h w) k = ix4 b (⟨k.val, k.isLt⟩ : Fin 10) h w := by
  funext c; apply Fin.ext
  match c with
  | ⟨0, _⟩ => rfl
  | ⟨1, _⟩ => rfl
  | ⟨2, _⟩ => rfl
  | ⟨3, _⟩ => rfl

/-- A maximum-reduce over the class axis from −∞ is, at pixel (b, h, w), the largest of the ten values there. -/
theorem reduce_max_classes (y : (⟨S8x10x512x512, .f32⟩ : BufTy).Contents (Elt Ideal))
    (init : (⟨S_, .f32⟩ : BufTy).Contents (Elt Ideal)) (hinit : init = fun _ => (⊥ : EReal))
    (b : Fin 8) (h w : Fin 512) :
    (Host.reduce (FloatOps.maximumf (F := Ideal) (φ := .f32)) y init reducesTo_S8x10x512x512_S8x512x512_d1 h_S_
        : (⟨S8x512x512, .f32⟩ : BufTy).Contents (Elt Ideal)) (ix3 b h w)
      = Cert.Pix.cmax (fun k => y (ix4 b k h w)) := by
  have hr : S8x10x512x512.Reduces [1] S8x512x512 := by decide
  have e := Host.reduce_eq_fold_single (s := S8x10x512x512) (α := EReal) (FloatOps.maximumf (F := Ideal) (φ := .f32)) y init
    reducesTo_S8x10x512x512_S8x512x512_d1 hr h_S_ (ix3 b h w)
  refine e.trans ?_
  subst hinit
  have hf : (y ∘ hr.lift (ix3 b h w)) = fun k : Fin 10 => y (ix4 b k h w) :=
    funext fun k => congrArg y (lift_classes hr b h w k)
  exact (congrArg (fun f => Finset.fold max (⊥ : EReal) f (Finset.univ : Finset (Fin 10))) hf).trans
    (fold_max_bot_eq_cmax _)

end Cert.ReferenceIdeal.Hand

end
-- ==== Proof.RefEnt.lean ====
/-
  The reference's entropy map is the canonical one. Read one operation at a time at pixel (b, h, w) and class k, the
  reference forms the largest score M of the pixel (a maximum-reduce from −∞, then a maximum with −∞, broadcast back over
  the classes), the shifted exponentials exp (x − M), their sum S started at zero, the probabilities p = exp (x − M) / S,
  the terms p · log (p + ε), their sum started at zero, and its negation: minus the sum of p · log (p + ε) over the ten
  classes. No finiteness of the scores is used: −∞ is the identity of the maximum and 0 of the sum on the extended reals.
-/
import proofs.«405973_j68616397521419_1_alg».proof.Proof.RefRead
import proofs.«405973_j68616397521419_1_alg».proof.Proof.ArrSpec
import proofs.«405973_j68616397521419_1_alg».proof.Proof.PixelMath
import proofs.«405973_j68616397521419_1_alg».proof.Proof.RefMax
import Idealize.ShloMosaic.Lib.ValueIdx
import Idealize.ShloMosaic.PureOps.Ideal.Laws

noncomputable section

namespace Cert.ReferenceIdeal.Hand

open Cert.ReferenceIdeal Cert.ReferenceIdeal.Gen Cert.ReferenceIdeal.ReadP Idealize.ShloMosaic Idealize.ShloMosaic.ValueIdx

/-- The pattern `0xFF800000` denotes −∞. -/
theorem negInf_eq : Ideal.ofBits .f32 0xFF800000#32 = (⊥ : EReal) := by
  simp [Ideal.ofBits, Ideal.ieee]

/-- The pattern of `+0.0` denotes `0`. -/
theorem posZero_eq : Ideal.ofBits .f32 0x00000000#32 = (0 : EReal) := Cert.Pix.zero_eq

variable (x : (⟨S8x10x512x512, .f32⟩ : BufTy).Contents (Elt Ideal)) (b : Fin 8) (k : Fin 10) (h w : Fin 512)

/-- The ten scores of pixel (b, h, w). -/
abbrev px : Fin 10 → EReal := fun c => x (ix4 b c h w)

/-- %0: the maximum-reduce over the classes is the pixel's largest score. -/
theorem v0_at : val_main_v0 (F := Ideal) x (ix3 b h w) = Cert.Pix.cmax (px x b h w) :=
  reduce_max_classes x (val_main_cst (F := Ideal)) (funext fun _ => negInf_eq) b h w

/-- %2: the maximum with −∞ changes nothing. -/
theorem v2_at : val_main_v2 (F := Ideal) x (ix3 b h w) = Cert.Pix.cmax (px x b h w) := by
  rw [val_main_v2_apply, val_main_v1_apply, val_main_cst_0_apply, v0_at]
  show max (Ideal.ofBits .f32 0xFF800000#32) _ = _
  rw [negInf_eq, max_eq_right bot_le]

/-- %3, %4: broadcast back over the classes. -/
theorem v4_at : val_main_v4 (F := Ideal) x (ix4 b k h w) = Cert.Pix.cmax (px x b h w) := by
  rw [val_main_v4_apply, val_main_v3_apply]
  have e : idx_main_v3 (idx_main_v4 (ix4 b k h w)) = ix3 b h w :=
    funext fun a => Fin.ext (by match a with | ⟨0, _⟩ => rfl | ⟨1, _⟩ => rfl | ⟨2, _⟩ => rfl)
  rw [e, v2_at]

/-- %5, %6: the shifted exponential. -/
theorem v6_at : val_main_v6 (F := Ideal) x (ix4 b k h w) = Ideal.exp (x (ix4 b k h w) - Cert.Pix.cmax (px x b h w)) := by
  rw [val_main_v6_apply, val_main_v5_apply, v4_at]
  rfl

/-- %7: the sum of the shifted exponentials, started at zero. -/
theorem v7_at : val_main_v7 (F := Ideal) x (ix3 b h w) = Cert.Pix.csum (px x b h w) := by
  rw [val_main_v7_apply, val_main_cst_1_apply]
  show Ideal.ofBits .f32 0x00000000#32 + _ = _
  rw [posZero_eq, zero_add]
  unfold Cert.Pix.csum
  refine Finset.sum_congr rfl fun c _ => ?_
  have e : idx_main_v7 (ix3 b h w) c = ix4 b c h w :=
    funext fun a => Fin.ext (by match a with | ⟨0, _⟩ => rfl | ⟨1, _⟩ => rfl | ⟨2, _⟩ => rfl | ⟨3, _⟩ => rfl)
  rw [e, v6_at]

/-- %8, %9: broadcast back over the classes. -/
theorem v9_at : val_main_v9 (F := Ideal) x (ix4 b k h w) = Cert.Pix.csum (px x b h w) := by
  rw [val_main_v9_apply, val_main_v8_apply]
  have e : idx_main_v8 (idx_main_v9 (ix4 b k h w)) = ix3 b h w :=
    funext fun a => Fin.ext (by match a with | ⟨0, _⟩ => rfl | ⟨1, _⟩ => rfl | ⟨2, _⟩ => rfl)
  rw [e, v7_at]

/-- %10: the softmax probability. -/
theorem v10_at : val_main_v10 (F := Ideal) x (ix4 b k h w) = Cert.Pix.cp (px x b h w) k := by
  rw [val_main_v10_apply, v6_at, v9_at]
  rfl

/-- %11 … %14: the probability times the logarithm of the probability plus ε. -/
theorem v14_at : val_main_v14 (F := Ideal) x (ix4 b k h w)
    = Cert.Pix.cp (px x b h w) k * Ideal.log (Cert.Pix.cp (px x b h w) k + Cert.Pix.eps) := by
  rw [val_main_v14_apply, val_main_v13_apply, val_main_v12_apply, val_main_v11_apply, val_main_cst_2_apply, v10_at]
  rfl

/-- %15, %16: minus the sum of the terms, started at zero. -/
theorem v16_at : val_main_v16 (F := Ideal) x (ix3 b h w) = Cert.Pix.cent (px x b h w) := by
  rw [val_main_v16_apply, val_main_v15_apply, val_main_cst_3_apply]
  show -(Ideal.ofBits .f32 0x00000000#32 + _) = _
  rw [posZero_eq, zero_add]
  unfold Cert.Pix.cent
  refine congrArg Neg.neg (Finset.sum_congr rfl fun c _ => ?_)
  have e : idx_main_v15 (ix3 b h w) c = ix4 b c h w :=
    funext fun a => Fin.ext (by match a with | ⟨0, _⟩ => rfl | ⟨1, _⟩ => rfl | ⟨2, _⟩ => rfl | ⟨3, _⟩ => rfl)
  rw [e, v14_at]

/-- The reference's entropy map is the canonical entropy map of the scores. -/
theorem ent_read (x : (⟨S8x10x512x512, .f32⟩ : BufTy).Contents (Elt Ideal)) :
    (val_main_v16 (F := Ideal) x : Cert.Arr.ST.Idx → EReal) = Cert.Arr.centArr x := by
  funext j
  obtain ⟨b, h, w, rfl⟩ : ∃ b h w, j = ix3 b h w := ⟨j 0, j 1, j 2, eq_ix3 j⟩
  rw [Cert.Arr.centArr_ix3]
  exact v16_at x b h w

end Cert.ReferenceIdeal.Hand

end
-- ==== Proof.RefCe.lean ====
/-
  The reference's masked cross-entropy map is the canonical one: at pixel `(b, h, w)`, with `v` the pixel's ten
  scores and `t` its target word, the program's value is `(−(v k − M − log S)) · valid`, where `M` is the largest
  score, `S = Σ exp (v c − M)`, `k = clip (t, 0, 9)` and `valid` is `1` unless `t = 10`. The log-softmax is read
  operation by operation (its maximum over the classes is the supremum of the ten scores, started from `−∞`; its
  sum starts from `0`); the pick along the class axis is a gather whose start index is the clipped word, which lies
  in `0 … 9`: so its normalization of negative indices is never taken, its in-range mask is true, its clamp is the
  identity, and the not-a-number fill is never selected.
-/
import proofs.«405973_j68616397521419_1_alg».proof.Proof.RefRead
import proofs.«405973_j68616397521419_1_alg».proof.Proof.ArrSpec
import proofs.«405973_j68616397521419_1_alg».proof.Proof.PixelMath
import proofs.«405973_j68616397521419_1_alg».proof.Proof.RefMax
import Idealize.ShloMosaic.Lib.ValueIdx
import Idealize.ShloMosaic.Lib.Pipeline.Value
import Idealize.ShloMosaic.PureOps.Ideal.Laws

noncomputable section

namespace Cert.ReferenceIdeal.Hand

open Cert.ReferenceIdeal Cert.ReferenceIdeal.Gen Cert.ReferenceIdeal.ReadP Idealize.ShloMosaic Idealize.ShloMosaic.ValueIdx

/-- The validity factor at a pixel. -/
theorem ce_valid (t : (⟨S8x512x512, .i32⟩ : BufTy).Contents (Elt Ideal)) (b : Fin 8) (h w : Fin 512) :
    val_main_v19 (F := Ideal) t (ix3 b h w) = Cert.Pix.validU (t (ix3 b h w)) := by
  rw [val_main_v19_apply, val_main_v18_apply, val_main_v17_apply, val_main_c_apply]
  rfl

/-- The clipped target at a pixel. -/
theorem ce_clip (t : (⟨S8x512x512, .i32⟩ : BufTy).Contents (Elt Ideal)) (b : Fin 8) (h w : Fin 512) :
    val_main_v21 (F := Ideal) t (ix3 b h w) = Cert.Pix.tclip (t (ix3 b h w)) := by
  rw [val_main_v21_apply, val_main_call0_v4_apply, val_main_call0_v3_apply, val_main_c_6_apply,
    val_main_call0_v2_apply, val_main_call0_v1_apply, val_main_call0_v0_apply, val_main_c_5_apply]
  rfl

/-- The pattern `0xFF800000` denotes `−∞`. -/
theorem ce_negInf : Ideal.ofBits .f32 0xFF800000#32 = (⊥ : EReal) := by simp [Ideal.ofBits, Ideal.ieee]

/-- A score less the largest of its pixel's ten: the maximum over the class axis, started from `−∞` and joined with
    `−∞` once more, is the supremum of the ten scores. -/
theorem ce_shift (x : (⟨S8x10x512x512, .f32⟩ : BufTy).Contents (Elt Ideal)) (b : Fin 8) (k : Fin 10) (h w : Fin 512) :
    val_main_call3_v5 (F := Ideal) x (ix4 b k h w) = x (ix4 b k h w) - Cert.Pix.cmax (fun k => x (ix4 b k h w)) := by
  rw [val_main_call3_v5_apply, val_main_call3_v4_apply, val_main_call3_v3_apply, val_main_call3_v2_apply,
    val_main_call3_v1_apply, val_main_call3_cst_0_apply]
  have hi : idx_main_call3_v3 (idx_main_call3_v4 (ix4 b k h w)) = ix3 b h w := by
    funext a; exact Fin.ext (by match a with | ⟨0, _⟩ => rfl | ⟨1, _⟩ => rfl | ⟨2, _⟩ => rfl)
  rw [hi]
  unfold val_main_call3_v0
  rw [reduce_max_classes x (val_main_call3_cst (F := Ideal)) (funext fun _ => ce_negInf) b h w]
  simp only [Ideal.ofBits_def, ce_negInf, Ideal.maximumf_def, Ideal.subf_def, bot_le, max_eq_right]

/-- The log-probability of a class at a pixel: the shifted score less the logarithm of the sum, over the ten classes
    and started from zero, of the shifted scores' exponentials. -/
theorem ce_lsm (x : (⟨S8x10x512x512, .f32⟩ : BufTy).Contents (Elt Ideal)) (b : Fin 8) (k : Fin 10) (h w : Fin 512) :
    val_main_v62 (F := Ideal) x (ix4 b k h w) = Cert.Pix.clp (fun k => x (ix4 b k h w)) k := by
  rw [val_main_v62_apply, ce_shift, val_main_call3_v10_apply, val_main_call3_v9_apply, val_main_call3_v8_apply,
    val_main_call3_v7_apply, val_main_call3_cst_1_apply]
  have hi : idx_main_call3_v8 (idx_main_call3_v10 (ix4 b k h w)) = ix3 b h w := by
    funext a; exact Fin.ext (by match a with | ⟨0, _⟩ => rfl | ⟨1, _⟩ => rfl | ⟨2, _⟩ => rfl)
  rw [hi]
  have hk : ∀ c : Fin 10, idx_main_call3_v7 (ix3 b h w) c = ix4 b c h w := fun c => by
    funext a; exact Fin.ext (by match a with | ⟨0, _⟩ => rfl | ⟨1, _⟩ => rfl | ⟨2, _⟩ => rfl | ⟨3, _⟩ => rfl)
  simp only [hk, val_main_call3_v6_apply, ce_shift]
  unfold Cert.Pix.clp Cert.Pix.csum
  simp only [Ideal.subf_def, Ideal.hostUnary_exp_def, Ideal.hostUnary_log_def, Ideal.ofBits_def, Ideal.ofBits_zero_f32, zero_add]

/-- The clipped target with a unit class axis. -/
theorem ce_v63 (t : (⟨S8x512x512, .i32⟩ : BufTy).Contents (Elt Ideal)) (b : Fin 8) (h w : Fin 512) :
    val_main_v63 (F := Ideal) t (ix4 b (0 : Fin 1) h w) = Cert.Pix.tclip (t (ix3 b h w)) := by
  rw [val_main_v63_apply]
  have hi : idx_main_v63 (ix4 b (0 : Fin 1) h w) = ix3 b h w := by
    funext a; exact Fin.ext (by match a with | ⟨0, _⟩ => rfl | ⟨1, _⟩ => rfl | ⟨2, _⟩ => rfl)
  rw [hi, ce_clip]

/-- A clipped word is not below zero. -/
theorem ce_tclip_slt (u : BitVec 32) : IntOp.cmpi .slt (Cert.Pix.tclip u) 0#32 = 0#1 := by
  obtain ⟨c, hc, -⟩ := Cert.Pix.tclip_cases u
  rw [hc]; fin_cases c <;> decide

/-- A clipped word is at least zero. -/
theorem ce_tclip_sge (u : BitVec 32) : IntOp.cmpi .sge (Cert.Pix.tclip u) 0#32 = 1#1 := by
  obtain ⟨c, hc, -⟩ := Cert.Pix.tclip_cases u
  rw [hc]; fin_cases c <;> decide

/-- A clipped word is at most nine. -/
theorem ce_tclip_sle (u : BitVec 32) : IntOp.cmpi .sle (Cert.Pix.tclip u) 9#32 = 1#1 := by
  obtain ⟨c, hc, -⟩ := Cert.Pix.tclip_cases u
  rw [hc]; fin_cases c <;> decide

/-- A clipped word, read signed and clamped into the classes, is its class. -/
theorem ce_tclip_clamp (u : BitVec 32) : min (Cert.Pix.tclip u).toInt.toNat 9 = (Cert.Pix.tcls u).val := by
  obtain ⟨c, hc, hk⟩ := Cert.Pix.tclip_cases u
  rw [hc, hk]; fin_cases c <;> decide

/-- The index normalization is never taken: the clipped word is not negative. -/
theorem ce_v4 (t : (⟨S8x512x512, .i32⟩ : BufTy).Contents (Elt Ideal)) (b : Fin 8) (h w : Fin 512) :
    val_main_call4_v4 (F := Ideal) t (ix4 b (0 : Fin 1) h w) = Cert.Pix.tclip (t (ix3 b h w)) := by
  rw [val_main_call4_v4_apply, val_main_call4_v1_apply, ce_v63, val_main_call4_v0_apply, val_main_call4_c_apply,
    ce_tclip_slt, select_zero]

/-- The class word with a trailing unit axis. -/
theorem ce_v5 (t : (⟨S8x512x512, .i32⟩ : BufTy).Contents (Elt Ideal)) (b : Fin 8) (h w : Fin 512) :
    val_main_call4_v5 (F := Ideal) t (ix5 b (0 : Fin 1) h w (0 : Fin 1)) = Cert.Pix.tclip (t (ix3 b h w)) := by
  rw [val_main_call4_v5_apply]
  have hi : idx_main_call4_v5 (ix5 b (0 : Fin 1) h w (0 : Fin 1)) = ix4 b (0 : Fin 1) h w := by
    have hb := b.isLt; have hh := h.isLt; have hw := w.isLt
    funext a; refine Fin.ext ?_
    match a with
    | ⟨0, _⟩ => show ((((b.val * 1 + 0) * 512 + h.val) * 512 + w.val) * 1 + 0) / 262144 = b.val; omega
    | ⟨1, _⟩ => rfl
    | ⟨2, _⟩ => show ((((b.val * 1 + 0) * 512 + h.val) * 512 + w.val) * 1 + 0) / 512 % 512 = h.val; omega
    | ⟨3, _⟩ => show ((((b.val * 1 + 0) * 512 + h.val) * 512 + w.val) * 1 + 0) % 512 = w.val; omega
  rw [hi, ce_v4]

/-- The in-range mask, reduced by `and` over its unit axis, is true. -/
theorem ce_v12 (t : (⟨S8x512x512, .i32⟩ : BufTy).Contents (Elt Ideal)) (b : Fin 8) (h w : Fin 512) :
    val_main_call4_v12 (F := Ideal) t (ix4 b (0 : Fin 1) h w) = 1#1 := by
  have hR : S8x1x512x512x1.Reduces [4] S8x1x512x512 := by decide
  have hone : ∀ (f : Fin 1 → BitVec 1) (c : BitVec 1), (Finset.univ : Finset (Fin 1)).fold IntOp.andi c f = IntOp.andi (f 0) c := by
    intro f c; rw [Finset.univ_unique, Finset.fold_singleton]; rfl
  have hl : hR.lift (ix4 b (0 : Fin 1) h w) (0 : Fin 1) = ix5 b (0 : Fin 1) h w (0 : Fin 1) := by
    funext a; exact Fin.ext (by match a with | ⟨0, _⟩ => rfl | ⟨1, _⟩ => rfl | ⟨2, _⟩ => rfl | ⟨3, _⟩ => rfl | ⟨4, _⟩ => rfl)
  unfold val_main_call4_v12
  rw [Host.reduce_eq_fold_single IntOp.andi _ _ reducesTo_S8x1x512x512x1_S8x1x512x512_d4 hR h_S_]
  refine (hone _ _).trans ?_
  show IntOp.andi (val_main_call4_v11 (F := Ideal) t (hR.lift (ix4 b (0 : Fin 1) h w) (0 : Fin 1))) (val_main_call4_c_3 (F := Ideal) _) = 1#1
  rw [hl, val_main_call4_c_3_apply, val_main_call4_v11_apply, val_main_call4_v7_apply, val_main_call4_v10_apply, ce_v5, val_main_call4_v6_apply,
    val_main_call4_c_2_apply, val_main_call4_v9_apply, val_main_call4_v8_apply, val_main_call4_c_1_apply, ce_tclip_sge, ce_tclip_sle]
  decide

/-- The gather along the class axis with batching axes batch, row and column: result element `(b, 0, h, w)` reads the
    operand at `(b, c, h, w)`, the class `c` the start index at `(b, 0, h, w, 0)` read signed and clamped into `0 … 9`. -/
theorem ce_gather {α : Type} (y : S8x10x512x512.Idx → α) (idx : IVec S8x1x512x512x1 32) (b : Fin 8) (h w : Fin 512) :
    Host.gather gather_S8x10x512x512_S8x1x512x512x1_S8x1x512x512_n_1_023_023_1_4_1111 y idx (ix4 b (0 : Fin 1) h w)
      = y (ix4 b ⟨min (idx (ix5 b (0 : Fin 1) h w (0 : Fin 1))).toInt.toNat 9, by omega⟩ h w) := by
  have hs : GatherDims.siIdx gather_S8x10x512x512_S8x1x512x512x1_S8x1x512x512_n_1_023_023_1_4_1111 (ix4 b (0 : Fin 1) h w) ⟨0, by decide⟩ = ix5 b (0 : Fin 1) h w (0 : Fin 1) := by
    funext a; refine Fin.ext ?_
    match a with
    | ⟨0, _⟩ => rfl
    | ⟨1, _⟩ => rfl
    | ⟨2, _⟩ => rfl
    | ⟨3, _⟩ => rfl
    | ⟨4, _⟩ => rfl
  unfold Host.gather
  congr 1
  funext a; refine Fin.ext ?_
  match a with
  | ⟨0, _⟩ => show 0 + b.val + 0 = b.val; omega
  | ⟨1, _⟩ =>
    show min (idx (GatherDims.siIdx gather_S8x10x512x512_S8x1x512x512x1_S8x1x512x512_n_1_023_023_1_4_1111 (ix4 b (0 : Fin 1) h w) ⟨0, by decide⟩)).toInt.toNat (10 - 1) + 0 + 0 = _
    rw [hs]
    rfl
  | ⟨2, _⟩ => show 0 + h.val + 0 = h.val; omega
  | ⟨3, _⟩ => show 0 + w.val + 0 = w.val; omega

/-- The picked log-probability at a pixel: the gather reads the log-softmax at the clipped target's class. -/
theorem ce_v13 (x : (⟨S8x10x512x512, .f32⟩ : BufTy).Contents (Elt Ideal)) (t : (⟨S8x512x512, .i32⟩ : BufTy).Contents (Elt Ideal))
    (b : Fin 8) (h w : Fin 512) :
    val_main_call4_v13 (F := Ideal) x t (ix4 b (0 : Fin 1) h w)
      = Cert.Pix.clp (fun k => x (ix4 b k h w)) (Cert.Pix.tcls (t (ix3 b h w))) := by
  unfold val_main_call4_v13
  refine (ce_gather _ _ b h w).trans ?_
  have hc : ∀ (u : BitVec 32) (hu : u = Cert.Pix.tclip (t (ix3 b h w))) (hlt : min u.toInt.toNat 9 < 10),
      (⟨min u.toInt.toNat 9, hlt⟩ : Fin 10) = Cert.Pix.tcls (t (ix3 b h w)) := by
    intro u hu hlt; subst hu; exact Fin.ext (ce_tclip_clamp _)
  rw [hc _ (ce_v5 t b h w), ce_lsm]

/-- THE MASKED CROSS-ENTROPY MAP of the reference is the canonical one. -/
theorem ce_read (x : (⟨S8x10x512x512, .f32⟩ : BufTy).Contents (Elt Ideal)) (t : (⟨S8x512x512, .i32⟩ : BufTy).Contents (Elt Ideal)) :
    (val_main_v67 (F := Ideal) x t : Cert.Arr.ST.Idx → EReal) = Cert.Arr.cceArr x t := by
  funext j
  obtain ⟨b, h, w, rfl⟩ : ∃ b h w, j = ix3 b h w := ⟨j 0, j 1, j 2, eq_ix3 j⟩
  rw [Cert.Arr.cceArr_ix3, val_main_v67_apply, val_main_v66_apply, val_main_v65_apply, ce_valid]
  have hi : idx_main_v65 (ix3 b h w) = ix4 b (0 : Fin 1) h w := by
    have hb := b.isLt; have hh := h.isLt; have hw := w.isLt
    funext a; refine Fin.ext ?_
    match a with
    | ⟨0, _⟩ => show ((b.val * 512 + h.val) * 512 + w.val) / 262144 = b.val; omega
    | ⟨1, _⟩ => rfl
    | ⟨2, _⟩ => show ((b.val * 512 + h.val) * 512 + w.val) / 512 % 512 = h.val; omega
    | ⟨3, _⟩ => show ((b.val * 512 + h.val) * 512 + w.val) % 512 = w.val; omega
  rw [hi, val_main_v64_apply, ce_v12, select_one, ce_v13]
  unfold Cert.Pix.cce
  simp only [Ideal.mulf_def, Ideal.hostNegf_def, Ideal.negf_def]

end Cert.ReferenceIdeal.Hand

end
-- ==== Proof.ArrMath.lean ====
/-
  Where every score is a real, the kernel's order and the canonical order give the same two maps: pixel by pixel it is the
  statement for ten real scores, the reals chosen for the array's entries.
-/
import proofs.«405973_j68616397521419_1_alg».proof.Proof.ArrSpec
import proofs.«405973_j68616397521419_1_alg».proof.Proof.PixelMath

noncomputable section

namespace Cert.Arr

open Idealize.ShloMosaic Idealize.ShloMosaic.ValueIdx

theorem kceArr_eq_cceArr (x : SX.Idx → EReal) (t : ST.Idx → BitVec 32) (hx : ∀ i, ∃ r : ℝ, x i = (r : EReal)) :
    kceArr x t = cceArr x t := by
  choose r hr using hx
  funext j
  have h : scoresAt x j = fun k => ((r (ix4 (j 0 : Fin 8) k (j 1 : Fin 512) (j 2 : Fin 512)) : ℝ) : EReal) :=
    funext fun k => hr _
  show Cert.Pix.kce (scoresAt x j) (t j) = Cert.Pix.cce (scoresAt x j) (t j)
  rw [h]
  exact Cert.Pix.kce_eq _ _

theorem kentArr_eq_centArr (x : SX.Idx → EReal) (hx : ∀ i, ∃ r : ℝ, x i = (r : EReal)) :
    kentArr x = centArr x := by
  choose r hr using hx
  funext j
  have h : scoresAt x j = fun k => ((r (ix4 (j 0 : Fin 8) k (j 1 : Fin 512) (j 2 : Fin 512)) : ℝ) : EReal) :=
    funext fun k => hr _
  show Cert.Pix.kent (scoresAt x j) = Cert.Pix.cent (scoresAt x j)
  rw [h]
  exact Cert.Pix.kent_eq _

end Cert.Arr

end
-- ==== Proof.Finite.lean ====
/-
  Under the precondition every score is a real number. The precondition is the conjunction, over all entries of the score array, of
  `|x| < +∞`, computed as one reduction by `and` into a single bit; where that bit is one, every entry's own bit is one, and an
  extended real whose absolute value `max x (−x)` lies below `⊤` is neither `⊤` nor `⊥`.
-/
import proofs.«405973_j68616397521419_1_alg».proof.Pre_finite_inputs
import proofs.«405973_j68616397521419_1_alg».proof.Proof.Gen.Pre_finite_inputs
import Idealize.ShloMosaic.PureOps.Ideal
import Idealize.ShloMosaic.Lib.ReduceAll
import Idealize.ShloMosaic.Lib.ValueIdx

noncomputable section

namespace Cert.Finite

open Idealize.ShloMosaic

/-- The pattern `0x7F800000` denotes `+∞`. -/
theorem ofBits_inf : Ideal.ofBits .f32 0x7F800000#32 = (⊤ : EReal) := by
  simp [Ideal.ofBits, Ideal.ieee]

/-- An extended real whose absolute value is strictly below `+∞` is a real. -/
theorem real_of_abs_lt_top (x : EReal) (h : max x (-x) < ⊤) : ∃ r : ℝ, x = (r : EReal) := by
  induction x using EReal.rec with
  | bot => simp at h
  | coe r => exact ⟨r, rfl⟩
  | top => simp at h

/-- Where the precondition holds of the scores `x` (whatever the targets), every score is a real. -/
theorem real_of_pre (x : FVec Ideal Cert.Pre_finite_inputs.S8x10x512x512 .f32) (t : IVec Cert.Pre_finite_inputs.S8x512x512 32)
    (h : Cert.Pre_finite_inputs.fn (F := Ideal) x t = fun _ => 1#1) (i : Cert.Pre_finite_inputs.S8x10x512x512.Idx) :
    ∃ r : ℝ, x i = (r : EReal) := by
  have h0 := congrFun h ValueIdx.ix0
  dsimp only [Cert.Pre_finite_inputs.fn] at h0
  haveI : Subsingleton Cert.Pre_finite_inputs.S_.Idx := ⟨fun a b => funext fun d => d.elim0⟩
  have h1 := Host.reduce_andi_all _ _ _ _ _ h0 i
  have h2 : Ideal.cmp .olt (max (x i) (-(x i))) (Ideal.ofBits .f32 0x7F800000#32) = 1#1 := h1
  rw [ofBits_inf] at h2
  have h3 : max (x i) (-(x i)) < ⊤ := by
    simp only [Ideal.cmp] at h2
    by_contra hn
    simp [hn] at h2
  exact real_of_abs_lt_top _ h3

end Cert.Finite

end
-- ==== Proof.lean ====
/-
  The certificate. The word-level kernel program and its idealization each run to the end with their arguments unchanged (the same
  frame argument at the two float families); the reference's run is read off its host operations in four stretches; the idealization
  pass rewrote nothing. At the extended reals both programs end at the SAME function — the shared tail — of a masked cross-entropy map,
  an entropy map and the targets: the kernel's two maps are written in its own left-to-right order of maxima, sums and differences,
  the reference's are the canonical maximum, sum and read at the clipped class, and where every score is a real (the precondition)
  the two orders agree pixel by pixel.
-/
import proofs.«405973_j68616397521419_1_alg».proof.Defs
import proofs.«405973_j68616397521419_1_alg».proof.Proof.Gen.Kernel
import proofs.«405973_j68616397521419_1_alg».proof.Proof.Gen.KernelIdeal
import proofs.«405973_j68616397521419_1_alg».proof.Proof.Gen.ReferenceIdeal
import proofs.«405973_j68616397521419_1_alg».proof.Proof.Gen.Pre_finite_inputs
import proofs.«405973_j68616397521419_1_alg».proof.Proof.KFrame
import proofs.«405973_j68616397521419_1_alg».proof.Proof.KIValue
import proofs.«405973_j68616397521419_1_alg».proof.Proof.RefValue
import proofs.«405973_j68616397521419_1_alg».proof.Proof.RefEnt
import proofs.«405973_j68616397521419_1_alg».proof.Proof.RefCe
import proofs.«405973_j68616397521419_1_alg».proof.Proof.ArrMath
import proofs.«405973_j68616397521419_1_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Hand.run (F := Ideal) m ρ)

theorem preserves : Cert.preserves_Kernel_KernelIdeal := trivial

/-- Both idealized programs end at the shared tail of their two maps and the targets; the maps agree where the scores are reals. -/
theorem algebraic : Cert.algebraic_KernelIdeal_ReferenceIdeal := by
  intro m ρ m' ρ' hpre hagree
  refine ⟨_, Cert.KernelIdeal.Hand.value m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2]
  have hx := Cert.Finite.real_of_pre _ _ (hpre c)
  rw [Cert.ReferenceIdeal.Hand.ce_read, Cert.ReferenceIdeal.Hand.ent_read,
    ← Cert.Arr.kceArr_eq_cceArr _ _ hx, ← Cert.Arr.kentArr_eq_centArr _ hx]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
